-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512 .f32) (main_arg5 : FVec F S512 .f32) (main_arg6 : FVec F S512 .f32) (main_arg7 : FVec F S512 .f32) (main_arg8 : FVec F S512 .f32) (main_arg9 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S32768x512 .f32) (main_arg1 : FVec F S32768x512 .f32) (main_arg2 : FVec F S512x512 .f32) (main_arg3 : FVec F S512x512 .f32) (main_arg4 : FVec F S512 .f32) (main_arg5 : FVec F S512 .f32) (main_arg6 : FVec F S512 .f32) (main_arg7 : FVec F S512 .f32) (main_arg8 : FVec F S512 .f32) (main_arg9 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_v13 main_v16
-- ==== Kernel.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S512x1, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S32768x512, .f32⟩
  | .hbm, ⟨17, _⟩ => ⟨S512x512, .f32⟩
  | .hbm, ⟨18, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v83 : BitVec 1 := Scalar.cmpi .eq arg0 c63_i32
  let v84 : BitVec 32 := Scalar.extui v83
  let c0_i32_40 : BitVec 32 := 0#32
  let v85 : BitVec 1 := Scalar.cmpi .ne v84 c0_i32_40
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  shapeCasts_S512_S1x512 : S512.ShapeCasts S1x512
  shapeCasts_S512_S512x1 : S512.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  broadcasts_S512x1_S512x512 : S512x1.Broadcasts S512x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  dot_S512x512_S512x512_S512x512_1_0_0_1_n_n_wf : DotDims.WF S512x512 S512x512 S512x512 [1] [0] [0] [1] [] []
  dot_S512x512_S512x512_S512x512_0_0_1_1_n_n_wf : DotDims.WF S512x512 S512x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S32768x512.size a
  hwx0_10 : ∀ i : grid0.Coords, EltTy.bits .f32 = 32 ∨ (Rect.block (s := S32768x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .f32 = 32 ∨ (Rect.block (s := S512x512) S512x512.size (cc0_transform_12 i) (hinb0_12 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S512x512.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6_2) S512x512.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | 12 => fun i => !(k0_cond2 i == 1#1) | ⟨_ + 13, h⟩ => absurd h (Nat.not_lt.2 (Nat.le_add_left _ _))

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S512x1 : Shape := ⟨2, ![512, 1]⟩

abbrev nBuf : Space → Nat
  | .hbm => 112
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S32768x512, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x512, .f32⟩
  | .hbm, ⟨27, _⟩ => ⟨S32768x512, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x512, .f32⟩
  | .hbm, ⟨33, _⟩ => ⟨S32768x512, .f32⟩
  | .hbm, ⟨34, _⟩ => ⟨S1x512, .f32⟩
  | .hbm, ⟨35, _⟩ => ⟨S32768x512, .f32⟩
  | .hbm, ⟨36, _⟩ => ⟨S32768x512, .f32⟩
  | .hbm, ⟨37, _⟩ => ⟨S1x512, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S_, .f32⟩
  | .hbm, ⟨43, _⟩ => ⟨S32768x512, .f32⟩
  | .hbm, ⟨44, _⟩ => ⟨S32768x512, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S_, .f32⟩
  | .hbm, ⟨55, _⟩ => ⟨S32768, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x512, .f32⟩
  | .hbm, ⟨61, _⟩ => ⟨S32768x512, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1, .f32⟩
  | .hbm, ⟨66, _⟩ => ⟨S32768x512, .f32⟩
  | .hbm, ⟨67, _⟩ => ⟨S32768x512, .f32⟩
  | .hbm, ⟨68, _⟩ => ⟨S1x512, .f32⟩
  | .hbm, ⟨69, _⟩ => ⟨S32768x512, .f32⟩
  | .hbm, ⟨70, _⟩ => ⟨S32768x512, .f32⟩
  | .hbm, ⟨71, _⟩ => ⟨S1x512, .f32⟩
  | .hbm, ⟨72, _⟩ => ⟨S32768x512, .f32⟩
  | .hbm, ⟨73, _⟩ => ⟨S32768x512, .f32⟩
  | .hbm, ⟨74, _⟩ => ⟨S512x512, .f32⟩
  | .hbm, ⟨75, _⟩ => ⟨S1x512, .f32⟩
  | .hbm, ⟨76, _⟩ => ⟨S512x512, .f32⟩
  | .hbm, ⟨77, _⟩ => ⟨S512x512, .f32⟩
  | .hbm, ⟨78, _⟩ => ⟨S512x512, .f32⟩
  | .hbm, ⟨79, _⟩ => ⟨S1x512, .f32⟩
  | .hbm, ⟨80, _⟩ => ⟨S512x512, .f32⟩
  | .hbm, ⟨81, _⟩ => ⟨S512x512, .f32⟩
  | .hbm, ⟨82, _⟩ => ⟨S512x512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512x512, .f32⟩
  | .hbm, ⟨87, _⟩ => ⟨S512x512, .f32⟩
  | .hbm, ⟨88, _⟩ => ⟨S_, .f32⟩
  | .hbm, ⟨89, _⟩ => ⟨S512, .f32⟩
  | .hbm, ⟨90, _⟩ => ⟨S512x1, .f32⟩
  | .hbm, ⟨91, _⟩ => ⟨S512x1, .f32⟩
  | .hbm, ⟨92, _⟩ => ⟨S_, .f32⟩
  | .hbm, ⟨93, _⟩ => ⟨S512x1, .f32⟩
  | .hbm, ⟨94, _⟩ => ⟨S512x1, .f32⟩
  | .hbm, ⟨95, _⟩ => ⟨S512x512, .f32⟩
  | .hbm, ⟨96, _⟩ => ⟨S512x512, .f32⟩
  | .hbm, ⟨97, _⟩ => ⟨S512x512, .f32⟩
  | .hbm, ⟨98, _⟩ => ⟨S512x1, .f32⟩
  | .hbm, ⟨99, _⟩ => ⟨S512x512, .f32⟩
  | .hbm, ⟨100, _⟩ => ⟨S512x512, .f32⟩
  | .hbm, ⟨101, _⟩ => ⟨S512x512, .f32⟩
  | .hbm, ⟨102, _⟩ => ⟨S512x512, .f32⟩
  | .hbm, ⟨103, _⟩ => ⟨S_, .f32⟩
  | .hbm, ⟨104, _⟩ => ⟨S512, .f32⟩
  | .hbm, ⟨105, _⟩ => ⟨S512x1, .f32⟩
  | .hbm, ⟨106, _⟩ => ⟨S512x1, .f32⟩
  | .hbm, ⟨107, _⟩ => ⟨S_, .f32⟩
  | .hbm, ⟨108, _⟩ => ⟨S512x1, .f32⟩
  | .hbm, ⟨109, _⟩ => ⟨S512x1, .f32⟩
  | .hbm, ⟨110, _⟩ => ⟨S512x512, .f32⟩
  | .hbm, ⟨111, _⟩ => ⟨S512x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_11 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_12 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S1x512_S512x512_0_1 : S1x512.BroadcastsInDim S512x512 (![0, 1] : Fin 2 → Fin S512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  reducesTo_S512x512_S512_d1 : S512x512.ReducesTo [1] S512
  bcast_S_S512x1 : S_.BroadcastsInDim S512x1 (![] : Fin 0 → Fin S512x1.rank)
  dot_S32768x512_S512x512_S32768x512_1_0_0_1_n_n_wf : DotDims.WF S32768x512 S512x512 S32768x512 [1] [0] [0] [1] [] []
  dot_S32768x512_S32768x512_S512x512_0_0_1_1_n_n_wf : DotDims.WF S32768x512 S32768x512 S512x512 [0] [0] [1] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S32768x512_S512x512_0_0_1_1_n_n : DotDims S32768x512 S32768x512 S512x512 where
  lhsContracting := [0]
  rhsContracting := [0]
  lhsNonContracting := [1]
  rhsNonContracting := [1]
  lhsBatch := []
  rhsBatch := []
  wf := dot_S32768x512_S32768x512_S512x512_0_0_1_1_n_n_wf

class Facts : Prop extends Facts₀ where

variable [Facts]
-- ==== Proof.Spec.lean ====
/-
  The layer as mathematics, over the extended reals.

  A batch of 32768 rows of width 512 passes through two weight matrices. With S = X·W (the stimulus path) and
  R = P·Wr (the recurrent path), the activation of row b is

      final b = LN (max (S b + LN (R b; γr, βr)) 0; γa, βa),

  where LN normalises a row by its mean and its (biased) variance plus a small constant, scales by γ and shifts
  by β. The two weight matrices move by a Hebbian step: with H = Xᵀ·S (a sum over the whole batch),

      raw i j = (W i j + H i j · α j) − δ i · W i j,     newW i j = raw i j / max (√(Σ_k raw i k ²)) ε,

  and the same for (P, Wr). The float words the two programs share (512, the two small constants, zero) stay as
  the patterns they are written with: the same word on both sides is never evaluated.
-/
import Idealize.ShloMosaic.Lib.ValueIdx
import Idealize.ShloMosaic.PureOps.Ideal.Laws

noncomputable section

namespace Cert.Spec

open Idealize.ShloMosaic Idealize.ShloMosaic.ValueIdx

/-- A matrix of extended reals with `a` rows and `b` columns. -/
abbrev Mat (a b : ℕ) := (⟨2, ![a, b]⟩ : Shape).Idx → EReal
/-- A vector of extended reals of length `a`. -/
abbrev Vect (a : ℕ) := (⟨1, ![a]⟩ : Shape).Idx → EReal

/-- The row width 512 as the programs write it. -/
abbrev w512 : EReal := Ideal.ofBits .f32 0x44000000#32
/-- The constant added to a variance before the inverse square root. -/
abbrev wEpsLN : EReal := Ideal.ofBits .f32 0x3727C5AC#32
/-- The floor under a row's Euclidean norm. -/
abbrev wEpsN : EReal := Ideal.ofBits .f32 0x2B8CBCCC#32
/-- The zero word. -/
abbrev wZero : EReal := Ideal.ofBits .f32 0x00000000#32

/-- The mean of a row of 512 entries. -/
def mean (x : Fin 512 → EReal) : EReal := Ideal.div (∑ k : Fin 512, x k) w512

/-- The biased variance of a row of 512 entries. -/
def var (x : Fin 512 → EReal) : EReal := Ideal.div (∑ k : Fin 512, (x k - mean x) * (x k - mean x)) w512

/-- Layer normalisation of a row: centre, divide by the root of the variance plus the constant, scale, shift. -/
def ln (x g b : Fin 512 → EReal) (q : Fin 512) : EReal :=
  (x q - mean x) * Ideal.rsqrt (var x + wEpsLN) * g q + b q

/-- Entry (r, j) of the product of an n-row matrix with a 512 × 512 matrix. -/
def mm {n : ℕ} (X : Mat n 512) (W : Mat 512 512) (r : Fin n) (j : Fin 512) : EReal :=
  ∑ k : Fin 512, X (ix2 r k) * W (ix2 k j)

/-- One row of the activation, from that row of the two products and the four parameter rows. -/
def act (s r g1 b1 g2 b2 : Fin 512 → EReal) : Fin 512 → EReal :=
  ln (fun j => max (s j + ln r g2 b2 j) wZero) g1 b1

/-- The activation of the whole batch. -/
def final (X P : Mat 32768 512) (W Wr : Mat 512 512) (lag lab lrg lrb : Vect 512) : Mat 32768 512 := fun i =>
  act (mm X W (i 0)) (mm P Wr (i 0)) (fun q => lag (ix1 q)) (fun q => lab (ix1 q)) (fun q => lrg (ix1 q))
    (fun q => lrb (ix1 q)) (i 1)

/-- Entry (i, j) of Xᵀ·(X·W) over the n rows of X. -/
def heb {n : ℕ} (X : Mat n 512) (W : Mat 512 512) (i j : Fin 512) : EReal :=
  ∑ b : Fin n, X (ix2 b i) * mm X W b j

/-- The weight after the Hebbian step and the decay, before normalisation, from the accumulated sum `h`. -/
def raw (h : Fin 512 → Fin 512 → EReal) (w : Mat 512 512) (al de : Fin 512 → EReal) (i j : Fin 512) : EReal :=
  (w (ix2 i j) + h i j * al j) - de i * w (ix2 i j)

/-- A row divided by its Euclidean norm, floored. -/
def unit (v : Fin 512 → Fin 512 → EReal) (i j : Fin 512) : EReal :=
  Ideal.div (v i j) (max (Ideal.sqrt (∑ k : Fin 512, v i k * v i k)) wEpsN)

/-- The new weight matrix. -/
def newW (X : Mat 32768 512) (W : Mat 512 512) (alpha decay : Vect 512) : Mat 512 512 := fun i =>
  unit (raw (heb X W) W (fun q => alpha (ix1 q)) (fun q => decay (ix1 q))) (i 0) (i 1)

end Cert.Spec

end
-- ==== Proof.BlockSum.lean ====
/-
  A sum over 32768 rows, taken 512 rows at a time.

  The batch is cut into 64 consecutive blocks of 512 rows. In any commutative additive monoid the sum over all rows
  is the sum over the blocks of the sum within each block: row b is row r of block s exactly when b = 512·s + r.
-/
import Mathlib.Algebra.BigOperators.Fin
import Mathlib.Algebra.BigOperators.Intervals
import Mathlib.Logic.Equiv.Fin.Basic

namespace Cert.BlockSum

/-- Row r of block s, as a row of the batch (reduced modulo the batch size so that it is defined for every s). -/
def row (s : ℕ) (r : Fin 512) : Fin 32768 := ⟨(512 * s + r.val) % 32768, Nat.mod_lt _ (by decide)⟩

theorem row_val (s : ℕ) (hs : s < 64) (r : Fin 512) : (row s r).val = 512 * s + r.val := by
  have := r.isLt
  show (512 * s + r.val) % 32768 = _
  exact Nat.mod_eq_of_lt (by omega)

/-- The sum over the batch is the sum over the 64 blocks of the sums within the blocks. -/
theorem sum_blocks {M : Type*} [AddCommMonoid M] (f : Fin 32768 → M) :
    ∑ s ∈ Finset.range 64, ∑ r : Fin 512, f (row s r) = ∑ b : Fin 32768, f b := by
  rw [Finset.sum_range (fun s => ∑ r : Fin 512, f (row s r))]
  rw [← Fintype.sum_prod_type' (f := fun (s : Fin 64) (r : Fin 512) => f (row s.val r))]
  refine Fintype.sum_equiv (finProdFinEquiv (m := 64) (n := 512)) _ _ (fun p => ?_)
  congr 1
  apply Fin.ext
  rw [row_val p.1.val p.1.isLt p.2]
  show _ = (finProdFinEquiv (m := 64) (n := 512) p).val
  rw [finProdFinEquiv_apply_val]
  omega

end Cert.BlockSum
-- ==== Proof.KernelBlocks.lean ====
/-
  The blocks a grid point holds, read at an index.

  The grid has 64 points; point t holds rows 512·t … 512·t + 511 of the stimulus X and of the previous activation P,
  and the whole of both weight matrices and of the six parameter vectors (each reshaped on the way in to a row
  [1, 512], the decay rates to a column [512, 1]).
-/
import proofs.«137702_j20761871909484_1_alg».proof.Proof.Gen.KernelIdeal.Value
import proofs.«137702_j20761871909484_1_alg».proof.Proof.Spec
import proofs.«137702_j20761871909484_1_alg».proof.Proof.BlockSum
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arguments, named -/

/-- The stimulus batch. -/
abbrev aX (c : Dev nD) : Spec.Mat 32768 512 := m ((c : Thread nD τ).loc main_arg0)
/-- The previous activation. -/
abbrev aP (c : Dev nD) : Spec.Mat 32768 512 := m ((c : Thread nD τ).loc main_arg1)
/-- The stimulus weights. -/
abbrev aW (c : Dev nD) : Spec.Mat 512 512 := m ((c : Thread nD τ).loc main_arg2)
/-- The recurrent weights. -/
abbrev aWr (c : Dev nD) : Spec.Mat 512 512 := m ((c : Thread nD τ).loc main_arg3)
/-- The Hebbian step sizes. -/
abbrev aAl (c : Dev nD) : Spec.Vect 512 := m ((c : Thread nD τ).loc main_arg4)
/-- The decay rates. -/
abbrev aDe (c : Dev nD) : Spec.Vect 512 := m ((c : Thread nD τ).loc main_arg5)
/-- The four layer-norm parameter vectors: activation scale and shift, recurrent scale and shift. -/
abbrev aG1 (c : Dev nD) : Spec.Vect 512 := m ((c : Thread nD τ).loc main_arg6)
abbrev aB1 (c : Dev nD) : Spec.Vect 512 := m ((c : Thread nD τ).loc main_arg7)
abbrev aG2 (c : Dev nD) : Spec.Vect 512 := m ((c : Thread nD τ).loc main_arg8)
abbrev aB2 (c : Dev nD) : Spec.Vect 512 := m ((c : Thread nD τ).loc main_arg9)

/-! ## Each window's block at a point, by its literal type -/

abbrev bX (c : Dev nD) (t : Fin cfg0.N) : Vec Ideal S512x512 .f32 := iblk m c 0 t
abbrev bP (c : Dev nD) (t : Fin cfg0.N) : Vec Ideal S512x512 .f32 := iblk m c 1 t
abbrev bW (c : Dev nD) (t : Fin cfg0.N) : Vec Ideal S512x512 .f32 := iblk m c 2 t
abbrev bWr (c : Dev nD) (t : Fin cfg0.N) : Vec Ideal S512x512 .f32 := iblk m c 3 t
abbrev bAl (c : Dev nD) (t : Fin cfg0.N) : Vec Ideal S1x512 .f32 := iblk m c 4 t
abbrev bDe (c : Dev nD) (t : Fin cfg0.N) : Vec Ideal S512x1 .f32 := iblk m c 5 t
abbrev bG1 (c : Dev nD) (t : Fin cfg0.N) : Vec Ideal S1x512 .f32 := iblk m c 6 t
abbrev bB1 (c : Dev nD) (t : Fin cfg0.N) : Vec Ideal S1x512 .f32 := iblk m c 7 t
abbrev bG2 (c : Dev nD) (t : Fin cfg0.N) : Vec Ideal S1x512 .f32 := iblk m c 8 t
abbrev bB2 (c : Dev nD) (t : Fin cfg0.N) : Vec Ideal S1x512 .f32 := iblk m c 9 t

theorem tlt (t : Fin cfg0.N) : t.val < 64 := lt_of_lt_of_eq t.isLt N_0

/-- Where each window's block sits: windows 0, 1 and 10 move down the rows with the point; the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Row r of the stimulus block at point t is row 512·t + r of the batch. -/
theorem bX_apply (c : Dev nD) (t : Fin cfg0.N) (r k : Fin 512) :
    bX m c t (ix2 r k) = aX m c (ix2 (BlockSum.row t.val r) k) := by
  show ((cfg0.win 0).blk t).view.read (Elt Ideal) (V m c (Pipeline.arrRef spec0 0)) (ix2 r k) = _
  rw [View.read_apply]
  show V m c main_arg0 _ = _
  rw [V_main_arg0]
  show m ((c : Thread nD τ).loc main_arg0) _ = m ((c : Thread nD τ).loc main_arg0) _
  congr 1
  funext a
  apply Fin.ext
  have h := idx_facts t
  match a with
  | ⟨0, _⟩ =>
    show win0_0.index t (0 : Fin 2) * 512 + 1 * r.val = (BlockSum.row t.val r).val
    rw [BlockSum.row_val _ (tlt t), h.1]; omega
  | ⟨1, _⟩ =>
    show win0_0.index t (1 : Fin 2) * 512 + 1 * k.val = k.val
    rw [h.2.1]; omega

/-- Row r of the previous-activation block at point t is row 512·t + r of the batch. -/
theorem bP_apply (c : Dev nD) (t : Fin cfg0.N) (r k : Fin 512) :
    bP m c t (ix2 r k) = aP m c (ix2 (BlockSum.row t.val r) k) := by
  show ((cfg0.win 1).blk t).view.read (Elt Ideal) (V m c (Pipeline.arrRef spec0 1)) (ix2 r k) = _
  rw [View.read_apply]
  show V m c main_arg1 _ = _
  rw [V_main_arg1]
  show m ((c : Thread nD τ).loc main_arg1) _ = m ((c : Thread nD τ).loc main_arg1) _
  congr 1
  funext a
  apply Fin.ext
  obtain ⟨h00, h01, h10, h11, hA0, hA1, h20, h21, h30, h31, h40, h41, h50, h51, h60, h61, h70, h71, h80, h81, h90, h91, hB0, hB1, hC0, hC1⟩ := idx_facts t
  match a with
  | ⟨0, _⟩ =>
    show win0_1.index t (0 : Fin 2) * 512 + 1 * r.val = (BlockSum.row t.val r).val
    rw [BlockSum.row_val _ (tlt t), h10]; omega
  | ⟨1, _⟩ =>
    show win0_1.index t (1 : Fin 2) * 512 + 1 * k.val = k.val
    rw [h11]; omega

/-- The stimulus-weight block at any point is the whole matrix. -/
theorem bW_eq (c : Dev nD) (t : Fin cfg0.N) : bW m c t = aW m c := by
  funext j
  show ((cfg0.win 2).blk t).view.read (Elt Ideal) (V m c (Pipeline.arrRef spec0 2)) j = _
  rw [View.read_apply]
  show V m c main_arg2 _ = _
  rw [V_main_arg2]
  show m ((c : Thread nD τ).loc main_arg2) _ = m ((c : Thread nD τ).loc main_arg2) _
  congr 1
  funext a
  apply Fin.ext
  obtain ⟨h00, h01, h10, h11, hA0, hA1, h20, h21, h30, h31, h40, h41, h50, h51, h60, h61, h70, h71, h80, h81, h90, h91, hB0, hB1, hC0, hC1⟩ := idx_facts t
  match a with
  | ⟨0, _⟩ =>
    show win0_2.index t (0 : Fin 2) * 512 + 1 * (j 0).val = (j 0).val
    rw [h20]; omega
  | ⟨1, _⟩ =>
    show win0_2.index t (1 : Fin 2) * 512 + 1 * (j 1).val = (j 1).val
    rw [h21]; omega

/-- The recurrent-weight block at any point is the whole matrix. -/
theorem bWr_eq (c : Dev nD) (t : Fin cfg0.N) : bWr m c t = aWr m c := by
  funext j
  show ((cfg0.win 3).blk t).view.read (Elt Ideal) (V m c (Pipeline.arrRef spec0 3)) j = _
  rw [View.read_apply]
  show V m c main_arg3 _ = _
  rw [V_main_arg3]
  show m ((c : Thread nD τ).loc main_arg3) _ = m ((c : Thread nD τ).loc main_arg3) _
  congr 1
  funext a
  apply Fin.ext
  obtain ⟨h00, h01, h10, h11, hA0, hA1, h20, h21, h30, h31, h40, h41, h50, h51, h60, h61, h70, h71, h80, h81, h90, h91, hB0, hB1, hC0, hC1⟩ := idx_facts t
  match a with
  | ⟨0, _⟩ =>
    show win0_3.index t (0 : Fin 2) * 512 + 1 * (j 0).val = (j 0).val
    rw [h30]; omega
  | ⟨1, _⟩ =>
    show win0_3.index t (1 : Fin 2) * 512 + 1 * (j 1).val = (j 1).val
    rw [h31]; omega

/-- The step sizes reach the region as a row [1, 512]: the vector reshaped. -/
theorem V_main_v0 (c : Dev nD) : (V m c main_v0 : S1x512.Idx → EReal) = shapeCast S1x512 (m ((c : Thread nD τ).loc main_arg4)) shapeCasts_S512_S1x512 := by
  dsimp only [V, hostOps0]
  after_results
  rfl

theorem bAl_apply (c : Dev nD) (t : Fin cfg0.N) (q : Fin 512) : bAl m c t (ix2 (0 : Fin 1) q) = aAl m c (ix1 q) := by
  show ((cfg0.win 4).blk t).view.read (Elt Ideal) (V m c (Pipeline.arrRef spec0 4)) (ix2 (0 : Fin 1) q) = _
  rw [View.read_apply]
  obtain ⟨h00, h01, h10, h11, hA0, hA1, h20, h21, h30, h31, h40, h41, h50, h51, h60, h61, h70, h71, h80, h81, h90, h91, hB0, hB1, hC0, hC1⟩ := idx_facts t
  have he : ((cfg0.win 4).blk t).view.emb (ix2 (0 : Fin 1) q) = (ix2 (0 : Fin 1) q : S1x512.Idx) := by
    funext a
    apply Fin.ext
    match a with
    | ⟨0, _⟩ =>
      show win0_4.index t (0 : Fin 2) * 1 + 1 * 0 = 0
      rw [h40]
    | ⟨1, _⟩ =>
      show win0_4.index t (1 : Fin 2) * 512 + 1 * q.val = q.val
      rw [h41]; omega
  rw [he]
  show (V m c main_v0 : S1x512.Idx → EReal) (ix2 (0 : Fin 1) q) = _
  rw [V_main_v0]
  refine shapeCast_apply _ shapeCasts_S512_S1x512 _ (ix1 q) ?_
  rw [Shape.rowMajor_val_one, Shape.rowMajor_val_two]
  show q.val = 0 * 512 + q.val
  omega

/-- The activation scale as a row. -/
theorem V_main_v2 (c : Dev nD) : (V m c main_v2 : S1x512.Idx → EReal) = shapeCast S1x512 (m ((c : Thread nD τ).loc main_arg6)) shapeCasts_S512_S1x512 := by
  dsimp only [V, hostOps0]
  after_results
  rfl

theorem bG1_apply (c : Dev nD) (t : Fin cfg0.N) (q : Fin 512) : bG1 m c t (ix2 (0 : Fin 1) q) = aG1 m c (ix1 q) := by
  show ((cfg0.win 6).blk t).view.read (Elt Ideal) (V m c (Pipeline.arrRef spec0 6)) (ix2 (0 : Fin 1) q) = _
  rw [View.read_apply]
  obtain ⟨h00, h01, h10, h11, hA0, hA1, h20, h21, h30, h31, h40, h41, h50, h51, h60, h61, h70, h71, h80, h81, h90, h91, hB0, hB1, hC0, hC1⟩ := idx_facts t
  have he : ((cfg0.win 6).blk t).view.emb (ix2 (0 : Fin 1) q) = (ix2 (0 : Fin 1) q : S1x512.Idx) := by
    funext a
    apply Fin.ext
    match a with
    | ⟨0, _⟩ =>
      show win0_6.index t (0 : Fin 2) * 1 + 1 * 0 = 0
      rw [h60]
    | ⟨1, _⟩ =>
      show win0_6.index t (1 : Fin 2) * 512 + 1 * q.val = q.val
      rw [h61]; omega
  rw [he]
  show (V m c main_v2 : S1x512.Idx → EReal) (ix2 (0 : Fin 1) q) = _
  rw [V_main_v2]
  refine shapeCast_apply _ shapeCasts_S512_S1x512 _ (ix1 q) ?_
  rw [Shape.rowMajor_val_one, Shape.rowMajor_val_two]
  show q.val = 0 * 512 + q.val
  omega

/-- The activation shift as a row. -/
theorem V_main_v3 (c : Dev nD) : (V m c main_v3 : S1x512.Idx → EReal) = shapeCast S1x512 (m ((c : Thread nD τ).loc main_arg7)) shapeCasts_S512_S1x512 := by
  dsimp only [V, hostOps0]
  after_results
  rfl

theorem bB1_apply (c : Dev nD) (t : Fin cfg0.N) (q : Fin 512) : bB1 m c t (ix2 (0 : Fin 1) q) = aB1 m c (ix1 q) := by
  show ((cfg0.win 7).blk t).view.read (Elt Ideal) (V m c (Pipeline.arrRef spec0 7)) (ix2 (0 : Fin 1) q) = _
  rw [View.read_apply]
  obtain ⟨h00, h01, h10, h11, hA0, hA1, h20, h21, h30, h31, h40, h41, h50, h51, h60, h61, h70, h71, h80, h81, h90, h91, hB0, hB1, hC0, hC1⟩ := idx_facts t
  have he : ((cfg0.win 7).blk t).view.emb (ix2 (0 : Fin 1) q) = (ix2 (0 : Fin 1) q : S1x512.Idx) := by
    funext a
    apply Fin.ext
    match a with
    | ⟨0, _⟩ =>
      show win0_7.index t (0 : Fin 2) * 1 + 1 * 0 = 0
      rw [h70]
    | ⟨1, _⟩ =>
      show win0_7.index t (1 : Fin 2) * 512 + 1 * q.val = q.val
      rw [h71]; omega
  rw [he]
  show (V m c main_v3 : S1x512.Idx → EReal) (ix2 (0 : Fin 1) q) = _
  rw [V_main_v3]
  refine shapeCast_apply _ shapeCasts_S512_S1x512 _ (ix1 q) ?_
  rw [Shape.rowMajor_val_one, Shape.rowMajor_val_two]
  show q.val = 0 * 512 + q.val
  omega

/-- The recurrent scale as a row. -/
theorem V_main_v4 (c : Dev nD) : (V m c main_v4 : S1x512.Idx → EReal) = shapeCast S1x512 (m ((c : Thread nD τ).loc main_arg8)) shapeCasts_S512_S1x512 := by
  dsimp only [V, hostOps0]
  after_results
  rfl

theorem bG2_apply (c : Dev nD) (t : Fin cfg0.N) (q : Fin 512) : bG2 m c t (ix2 (0 : Fin 1) q) = aG2 m c (ix1 q) := by
  show ((cfg0.win 8).blk t).view.read (Elt Ideal) (V m c (Pipeline.arrRef spec0 8)) (ix2 (0 : Fin 1) q) = _
  rw [View.read_apply]
  obtain ⟨h00, h01, h10, h11, hA0, hA1, h20, h21, h30, h31, h40, h41, h50, h51, h60, h61, h70, h71, h80, h81, h90, h91, hB0, hB1, hC0, hC1⟩ := idx_facts t
  have he : ((cfg0.win 8).blk t).view.emb (ix2 (0 : Fin 1) q) = (ix2 (0 : Fin 1) q : S1x512.Idx) := by
    funext a
    apply Fin.ext
    match a with
    | ⟨0, _⟩ =>
      show win0_8.index t (0 : Fin 2) * 1 + 1 * 0 = 0
      rw [h80]
    | ⟨1, _⟩ =>
      show win0_8.index t (1 : Fin 2) * 512 + 1 * q.val = q.val
      rw [h81]; omega
  rw [he]
  show (V m c main_v4 : S1x512.Idx → EReal) (ix2 (0 : Fin 1) q) = _
  rw [V_main_v4]
  refine shapeCast_apply _ shapeCasts_S512_S1x512 _ (ix1 q) ?_
  rw [Shape.rowMajor_val_one, Shape.rowMajor_val_two]
  show q.val = 0 * 512 + q.val
  omega

/-- The recurrent shift as a row. -/
theorem V_main_v5 (c : Dev nD) : (V m c main_v5 : S1x512.Idx → EReal) = shapeCast S1x512 (m ((c : Thread nD τ).loc main_arg9)) shapeCasts_S512_S1x512 := by
  dsimp only [V, hostOps0]
  after_results
  rfl

theorem bB2_apply (c : Dev nD) (t : Fin cfg0.N) (q : Fin 512) : bB2 m c t (ix2 (0 : Fin 1) q) = aB2 m c (ix1 q) := by
  show ((cfg0.win 9).blk t).view.read (Elt Ideal) (V m c (Pipeline.arrRef spec0 9)) (ix2 (0 : Fin 1) q) = _
  rw [View.read_apply]
  obtain ⟨h00, h01, h10, h11, hA0, hA1, h20, h21, h30, h31, h40, h41, h50, h51, h60, h61, h70, h71, h80, h81, h90, h91, hB0, hB1, hC0, hC1⟩ := idx_facts t
  have he : ((cfg0.win 9).blk t).view.emb (ix2 (0 : Fin 1) q) = (ix2 (0 : Fin 1) q : S1x512.Idx) := by
    funext a
    apply Fin.ext
    match a with
    | ⟨0, _⟩ =>
      show win0_9.index t (0 : Fin 2) * 1 + 1 * 0 = 0
      rw [h90]
    | ⟨1, _⟩ =>
      show win0_9.index t (1 : Fin 2) * 512 + 1 * q.val = q.val
      rw [h91]; omega
  rw [he]
  show (V m c main_v5 : S1x512.Idx → EReal) (ix2 (0 : Fin 1) q) = _
  rw [V_main_v5]
  refine shapeCast_apply _ shapeCasts_S512_S1x512 _ (ix1 q) ?_
  rw [Shape.rowMajor_val_one, Shape.rowMajor_val_two]
  show q.val = 0 * 512 + q.val
  omega

/-- The decay rates reach the region as a column [512, 1]: the vector reshaped. -/
theorem V_main_v1 (c : Dev nD) : (V m c main_v1 : S512x1.Idx → EReal) = shapeCast S512x1 (m ((c : Thread nD τ).loc main_arg5)) shapeCasts_S512_S512x1 := by
  dsimp only [V, hostOps0]
  after_results
  rfl

theorem bDe_apply (c : Dev nD) (t : Fin cfg0.N) (q : Fin 512) : bDe m c t (ix2 q (0 : Fin 1)) = aDe m c (ix1 q) := by
  show ((cfg0.win 5).blk t).view.read (Elt Ideal) (V m c (Pipeline.arrRef spec0 5)) (ix2 q (0 : Fin 1)) = _
  rw [View.read_apply]
  obtain ⟨h00, h01, h10, h11, hA0, hA1, h20, h21, h30, h31, h40, h41, h50, h51, h60, h61, h70, h71, h80, h81, h90, h91, hB0, hB1, hC0, hC1⟩ := idx_facts t
  have he : ((cfg0.win 5).blk t).view.emb (ix2 q (0 : Fin 1)) = (ix2 q (0 : Fin 1) : S512x1.Idx) := by
    funext a
    apply Fin.ext
    match a with
    | ⟨0, _⟩ =>
      show win0_5.index t (0 : Fin 2) * 512 + 1 * q.val = q.val
      rw [h50]; omega
    | ⟨1, _⟩ =>
      show win0_5.index t (1 : Fin 2) * 1 + 1 * 0 = 0
      rw [h51]
  rw [he]
  show (V m c main_v1 : S512x1.Idx → EReal) (ix2 q (0 : Fin 1)) = _
  rw [V_main_v1]
  refine shapeCast_apply _ shapeCasts_S512_S512x1 _ (ix1 q) ?_
  rw [Shape.rowMajor_val_one, Shape.rowMajor_val_two]
  show q.val = q.val * 1 + 0
  omega

end Cert.KernelIdeal.KValue

end
-- ==== Proof.KernelTerms.lean ====
/-
  The kernel body's three composite values, named once. In terms of the blocks a grid point loads
  (x0, x1 the stimulus and previous-activation row blocks; x2, x3 the two weight matrices; x6 … x9 the four
  layer-norm parameter rows) and of what an accumulator held before the point (s):
  the activation block; the stimulus accumulator after the point; the recurrent accumulator after the point.
-/
import proofs.«137702_j20761871909484_1_alg».proof.Proof.Gen.KernelIdeal.Skeleton

noncomputable section

namespace Cert.KernelIdeal.Terms

open Cert.KernelIdeal Cert.KernelIdeal.Gen Idealize.ShloMosaic

variable {F : FTy → Type} [FloatOps F]

/-- The activation block a point stores: LN (max (x0·x2 + LN (x1·x3; x8, x9)) 0; x6, x7). -/
def finalBlk (x0 x1 x2 x3 : Vec F S512x512 .f32) (x6 x7 x8 x9 : Vec F S1x512 .f32) : FVec F S512x512 .f32 :=
  k0_pay14 (k0_pay8 x0) (k0_pay10 x2) (k0_pay12 x1 x3 x8 x9) x6 x7

/-- The stimulus accumulator after a point: what it held plus x0ᵀ·(x0·x2). -/
def hebStep (x0 x2 s : Vec F S512x512 .f32) : FVec F S512x512 .f32 :=
  k0_pay16 (k0_pay8 x0) (k0_pay10 x2) s

/-- The recurrent accumulator after a point: what it held plus x1ᵀ·(x1·x3). -/
def recStep (x1 x3 s : Vec F S512x512 .f32) : FVec F S512x512 .f32 :=
  k0_pay1 (k0_pay15 (k0_pay9 x1) (k0_pay11 x1 x3)) s

end Cert.KernelIdeal.Terms

end
-- ==== Proof.KernelPieces.lean ====
/-
  What each control case of the body leaves in the activation block, in the two carried accumulators and (at the
  last point) in the two weight blocks, as the body's own value terms of the blocks it loaded: each staging buffer
  is stored whole, so reading it back over anything gives the stored value. For any float instance.
-/
import proofs.«137702_j20761871909484_1_alg».proof.Proof.Gen.KernelIdeal.Frame
import proofs.«137702_j20761871909484_1_alg».proof.Proof.KernelTerms
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The origin of a whole-buffer rectangle, written as a literal pair, is the zero offset. -/
private theorem hz : (![0, 0] : Fin 2 → Nat) = fun _ => 0 := funext fun a => by fin_cases a <;> rfl

/-- Case A (first point): the activation block stored. -/
theorem out10_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : cond0_0 i) (hc1 : ¬cond0_1 i)
    (x0 : Vec F S512x512 .f32) (x1 : Vec F S512x512 .f32) (x2 : Vec F S512x512 .f32) (x3 : Vec F S512x512 .f32) (x4 : Vec F S1x512 .f32) (x5 : Vec F S512x1 .f32) (x6 : Vec F S1x512 .f32) (x7 : Vec F S1x512 .f32) (x8 : Vec F S1x512 .f32) (x9 : Vec F S1x512 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = Terms.finalBlk x0 x1 x2 x3 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S1x512) hz, View.ld_unit_zero (S := S512x1) hz]
  unfold Terms.finalBlk
  rfl

/-- Case B (middle points): the activation block stored. -/
theorem out10_B (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : ¬cond0_0 i) (hc1 : ¬cond0_1 i)
    (x0 : Vec F S512x512 .f32) (x1 : Vec F S512x512 .f32) (x2 : Vec F S512x512 .f32) (x3 : Vec F S512x512 .f32) (x4 : Vec F S1x512 .f32) (x5 : Vec F S512x1 .f32) (x6 : Vec F S1x512 .f32) (x7 : Vec F S1x512 .f32) (x8 : Vec F S1x512 .f32) (x9 : Vec F S1x512 .f32) (xs0 : Vec F S512x512 .f32) (xs1 : Vec F S512x512 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = Terms.finalBlk x0 x1 x2 x3 x6 x7 x8 x9 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S1x512) hz, View.ld_unit_zero (S := S512x1) hz]
  unfold Terms.finalBlk
  rfl

/-- Case C (last point): the activation block stored. -/
theorem out10_C (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : ¬cond0_0 i) (hc1 : cond0_1 i)
    (x0 : Vec F S512x512 .f32) (x1 : Vec F S512x512 .f32) (x2 : Vec F S512x512 .f32) (x3 : Vec F S512x512 .f32) (x4 : Vec F S1x512 .f32) (x5 : Vec F S512x1 .f32) (x6 : Vec F S1x512 .f32) (x7 : Vec F S1x512 .f32) (x8 : Vec F S1x512 .f32) (x9 : Vec F S1x512 .f32) (xs0 : Vec F S512x512 .f32) (xs1 : Vec F S512x512 .f32) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = Terms.finalBlk x0 x1 x2 x3 x6 x7 x8 x9 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S1x512) hz, View.ld_unit_zero (S := S512x1) hz]
  unfold Terms.finalBlk
  rfl

/-- Case A: the stimulus accumulator is reset to the zero block and then takes the point's update. -/
theorem sout0_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : cond0_0 i) (hc1 : ¬cond0_1 i)
    (x0 : Vec F S512x512 .f32) (x1 : Vec F S512x512 .f32) (x2 : Vec F S512x512 .f32) (x3 : Vec F S512x512 .f32) (x4 : Vec F S1x512 .f32) (x5 : Vec F S512x1 .f32) (x6 : Vec F S1x512 .f32) (x7 : Vec F S1x512 .f32) (x8 : Vec F S1x512 .f32) (x9 : Vec F S1x512 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = Terms.hebStep x0 x2 (k0_pay6 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  rw [View.canon_cons_unit_zero (S := S512x512) hz, View.readCov_unit_zero (S := S512x512) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S1x512) hz, View.ld_unit_zero (S := S512x1) hz, View.readCov_unit_zero (S := S512x512) _ hz]
  unfold Terms.hebStep
  rfl

/-- Case B: the stimulus accumulator takes the point's update over what the point before left. -/
theorem sout0_B (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : ¬cond0_0 i) (hc1 : ¬cond0_1 i)
    (x0 : Vec F S512x512 .f32) (x1 : Vec F S512x512 .f32) (x2 : Vec F S512x512 .f32) (x3 : Vec F S512x512 .f32) (x4 : Vec F S1x512 .f32) (x5 : Vec F S512x1 .f32) (x6 : Vec F S1x512 .f32) (x7 : Vec F S1x512 .f32) (x8 : Vec F S1x512 .f32) (x9 : Vec F S1x512 .f32) (xs0 : Vec F S512x512 .f32) (xs1 : Vec F S512x512 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = Terms.hebStep x0 x2 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S1x512) hz, View.ld_unit_zero (S := S512x1) hz]
  unfold Terms.hebStep
  rfl

/-- Case C: the stimulus accumulator takes the point's update over what the point before left. -/
theorem sout0_C (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : ¬cond0_0 i) (hc1 : cond0_1 i)
    (x0 : Vec F S512x512 .f32) (x1 : Vec F S512x512 .f32) (x2 : Vec F S512x512 .f32) (x3 : Vec F S512x512 .f32) (x4 : Vec F S1x512 .f32) (x5 : Vec F S512x1 .f32) (x6 : Vec F S1x512 .f32) (x7 : Vec F S1x512 .f32) (x8 : Vec F S1x512 .f32) (x9 : Vec F S1x512 .f32) (xs0 : Vec F S512x512 .f32) (xs1 : Vec F S512x512 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = Terms.hebStep x0 x2 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S1x512) hz, View.ld_unit_zero (S := S512x1) hz]
  unfold Terms.hebStep
  rfl

/-- Case A: the recurrent accumulator is reset to the zero block and then takes the point's update. -/
theorem sout1_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : cond0_0 i) (hc1 : ¬cond0_1 i)
    (x0 : Vec F S512x512 .f32) (x1 : Vec F S512x512 .f32) (x2 : Vec F S512x512 .f32) (x3 : Vec F S512x512 .f32) (x4 : Vec F S1x512 .f32) (x5 : Vec F S512x1 .f32) (x6 : Vec F S1x512 .f32) (x7 : Vec F S1x512 .f32) (x8 : Vec F S1x512 .f32) (x9 : Vec F S1x512 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = Terms.recStep x1 x3 (k0_pay7 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  rw [View.canon_cons_unit_zero (S := S512x512) hz, View.readCov_unit_zero (S := S512x512) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S1x512) hz, View.ld_unit_zero (S := S512x1) hz, View.readCov_unit_zero (S := S512x512) _ hz]
  unfold Terms.recStep
  rfl

/-- Case B: the recurrent accumulator takes the point's update over what the point before left. -/
theorem sout1_B (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : ¬cond0_0 i) (hc1 : ¬cond0_1 i)
    (x0 : Vec F S512x512 .f32) (x1 : Vec F S512x512 .f32) (x2 : Vec F S512x512 .f32) (x3 : Vec F S512x512 .f32) (x4 : Vec F S1x512 .f32) (x5 : Vec F S512x1 .f32) (x6 : Vec F S1x512 .f32) (x7 : Vec F S1x512 .f32) (x8 : Vec F S1x512 .f32) (x9 : Vec F S1x512 .f32) (xs0 : Vec F S512x512 .f32) (xs1 : Vec F S512x512 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = Terms.recStep x1 x3 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S1x512) hz, View.ld_unit_zero (S := S512x1) hz]
  unfold Terms.recStep
  rfl

/-- Case C: the recurrent accumulator takes the point's update over what the point before left. -/
theorem sout1_C (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : ¬cond0_0 i) (hc1 : cond0_1 i)
    (x0 : Vec F S512x512 .f32) (x1 : Vec F S512x512 .f32) (x2 : Vec F S512x512 .f32) (x3 : Vec F S512x512 .f32) (x4 : Vec F S1x512 .f32) (x5 : Vec F S512x1 .f32) (x6 : Vec F S1x512 .f32) (x7 : Vec F S1x512 .f32) (x8 : Vec F S1x512 .f32) (x9 : Vec F S1x512 .f32) (xs0 : Vec F S512x512 .f32) (xs1 : Vec F S512x512 .f32) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = Terms.recStep x1 x3 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S1x512) hz, View.ld_unit_zero (S := S512x1) hz]
  unfold Terms.recStep
  rfl

/-- Case C: the new stimulus weights, from the accumulator as the point leaves it. -/
theorem out11_C (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : ¬cond0_0 i) (hc1 : cond0_1 i)
    (x0 : Vec F S512x512 .f32) (x1 : Vec F S512x512 .f32) (x2 : Vec F S512x512 .f32) (x3 : Vec F S512x512 .f32) (x4 : Vec F S1x512 .f32) (x5 : Vec F S512x1 .f32) (x6 : Vec F S1x512 .f32) (x7 : Vec F S1x512 .f32) (x8 : Vec F S1x512 .f32) (x9 : Vec F S1x512 .f32) (xs0 : Vec F S512x512 .f32) (xs1 : Vec F S512x512 .f32) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k0_pay4 x2 x4 x5 (Terms.hebStep x0 x2 xs0) := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S1x512) hz, View.ld_unit_zero (S := S512x1) hz, View.readCov_unit_zero (S := S512x512) _ hz]
  unfold Terms.hebStep
  rfl

/-- Case C: the new recurrent weights, from the accumulator as the point leaves it. -/
theorem out12_C (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : ¬cond0_0 i) (hc1 : cond0_1 i)
    (x0 : Vec F S512x512 .f32) (x1 : Vec F S512x512 .f32) (x2 : Vec F S512x512 .f32) (x3 : Vec F S512x512 .f32) (x4 : Vec F S1x512 .f32) (x5 : Vec F S512x1 .f32) (x6 : Vec F S1x512 .f32) (x7 : Vec F S1x512 .f32) (x8 : Vec F S1x512 .f32) (x9 : Vec F S1x512 .f32) (xs0 : Vec F S512x512 .f32) (xs1 : Vec F S512x512 .f32) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k0_pay5 x3 x4 x5 (Terms.recStep x1 x3 xs1) := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S1x512) hz, View.ld_unit_zero (S := S512x1) hz, View.readCov_unit_zero (S := S512x512) _ hz]
  unfold Terms.recStep
  rfl

end Cert.KernelIdeal.Pieces

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.KernelPay.lean ====
/-
  The kernel body's value terms read at an index, at the ideal values: each is the layer's own formula
  (Spec.lean) of the blocks the point loaded. A change of float format is the identity there, a matrix product
  into a zero accumulator is a plain sum over the contracted axis, and a lane sum is a plain row sum.
-/
import proofs.«137702_j20761871909484_1_alg».proof.Proof.KernelTerms
import proofs.«137702_j20761871909484_1_alg».proof.Proof.Spec
import proofs.«137702_j20761871909484_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## Layout operations and the lane sum, read at an index -/

/-- A [512, 1] column broadcast across the columns of [512, 512]: at (p, q), the column at p. -/
private theorem col_bcast (v : FVec Ideal S512x1 .f32) (p q : Fin 512) :
    broadcastTo S512x512 v broadcasts_S512x1_S512x512 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- A vector [512] cast to a column [512, 1]: at (p, 0), the vector at p. -/
private theorem col_cast (v : FVec Ideal S512 .f32) (p : Fin 512) :
    shapeCast S512x1 v shapeCasts_S512_S512x1 (ix2 p (0 : Fin 1)) = v (ix1 p) := by
  refine shapeCast_apply v _ _ _ ?_
  rw [Shape.rowMajor_val_one, Shape.rowMajor_val_two]
  show p.val = p.val * 1 + 0
  omega

/-- A [1, 512] row cast to its own shape and broadcast down the rows of [512, 512]: at (p, q), the row at q. -/
private theorem row_bcast (v : FVec Ideal S1x512 .f32) (p q : Fin 512) :
    broadcastTo S512x512 (shapeCast S1x512 v shapeCasts_S1x512_S1x512) broadcasts_S1x512_S512x512 (ix2 p q)
      = v (ix2 (0 : Fin 1) q) :=
  LibKeepdims.row_broadcast_apply v _ _ p q

/-- The sum along the lanes of a [512, 512] block from the zero word, at row p: the sum of the row. -/
private theorem lane_sum (src : FVec Ideal S512x512 .f32) (p : Fin 512) :
    multiReduction (F := Ideal) .add [1] S512 src 0x00000000#32 reduces_S512x512_S512 (.inl rfl) rfl (ix1 p)
      = ∑ k : Fin 512, src (ix2 p k) :=
  LibKeepdims.lane_sum_apply src _ _ _ p

private theorem rsqrt_apply (x : FVec Ideal S512x1 .f32) (i : S512x1.Idx) : rsqrt x i = Ideal.rsqrt (x i) := rfl
private theorem sqrt_apply (x : FVec Ideal S512x1 .f32) (i : S512x1.Idx) : sqrt x i = Ideal.sqrt (x i) := rfl

/-! ## The two matrix products into the zero block, read at an index -/

/-! The product contracting the left operand's columns with the right operand's rows: the operand indices
    at an output index and a contraction coordinate, axis by axis. -/

private theorem lhs_rc_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
private theorem lhs_rc_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
private theorem rhs_rc_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
private theorem rhs_rc_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Rows times columns into the zero block: entry (r, j) is the sum over k of a (r, k) · b (k, j). -/
private theorem matmul_rc_apply {φ₁ φ₂ : FTy} (a : FVec Ideal S512x512 φ₁) (b : FVec Ideal S512x512 φ₂) (r j : Fin 512) :
    matmul dot_S512x512_S512x512_S512x512_1_0_0_1_n_n none a b (constant (F := Ideal) S512x512 .f32 0x00000000#32) (ix2 r j)
      = ∑ k : Fin 512, a (ix2 r k) * b (ix2 k j) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 r j) ((ValueIdx.contrEquiv1 dot_S512x512_S512x512_S512x512_1_0_0_1_n_n 512 rfl rfl).symm k) = ix2 r k := funext fun ax => Fin.ext (by
    match ax with
    | ⟨0, _⟩ => exact lhs_rc_0 _ _
    | ⟨1, _⟩ => exact (lhs_rc_1 _ _).trans hk)
  have er : dot_S512x512_S512x512_S512x512_1_0_0_1_n_n.rhsIdx (ix2 r j) ((ValueIdx.contrEquiv1 dot_S512x512_S512x512_S512x512_1_0_0_1_n_n 512 rfl rfl).symm k) = ix2 k j := funext fun ax => Fin.ext (by
    match ax with
    | ⟨0, _⟩ => exact (rhs_rc_0 _ _).trans hk
    | ⟨1, _⟩ => exact rhs_rc_1 _ _)
  rw [el, er]

/-! The product contracting the rows of both operands (the left operand transposed). -/

private theorem lhs_tt_0 (i : S512x512.Idx) (q : dot_S512x512_S512x512_S512x512_0_0_1_1_n_n.contr.Idx) :
    (dot_S512x512_S512x512_S512x512_0_0_1_1_n_n.lhsIdx i q 0).val = (q ⟨0, by decide⟩).val :=
  dot_S512x512_S512x512_S512x512_0_0_1_1_n_n.lhsIdx_val_of_single rfl i q
private theorem lhs_tt_1 (i : S512x512.Idx) (q : dot_S512x512_S512x512_S512x512_0_0_1_1_n_n.contr.Idx) :
    (dot_S512x512_S512x512_S512x512_0_0_1_1_n_n.lhsIdx i q 1).val = (i 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl
private theorem rhs_tt_0 (i : S512x512.Idx) (q : dot_S512x512_S512x512_S512x512_0_0_1_1_n_n.contr.Idx) :
    (dot_S512x512_S512x512_S512x512_0_0_1_1_n_n.rhsIdx i q 0).val = (q ⟨0, by decide⟩).val :=
  dot_S512x512_S512x512_S512x512_0_0_1_1_n_n.rhsIdx_val_of_single rfl i q
private theorem rhs_tt_1 (i : S512x512.Idx) (q : dot_S512x512_S512x512_S512x512_0_0_1_1_n_n.contr.Idx) :
    (dot_S512x512_S512x512_S512x512_0_0_1_1_n_n.rhsIdx i q 1).val = (i 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl

/-- Transposed rows times rows into the zero block: entry (i, j) is the sum over r of a (r, i) · b (r, j). -/
private theorem matmul_tt_apply {φ₁ φ₂ : FTy} (a : FVec Ideal S512x512 φ₁) (b : FVec Ideal S512x512 φ₂) (i j : Fin 512) :
    matmul dot_S512x512_S512x512_S512x512_0_0_1_1_n_n none a b (constant (F := Ideal) S512x512 .f32 0x00000000#32) (ix2 i j)
      = ∑ r : Fin 512, a (ix2 r i) * b (ix2 r j) := by
  simp only [matmul]
  rw [Ideal.matmul_constant_zero_apply, ← Equiv.sum_comp (ValueIdx.contrEquiv1 dot_S512x512_S512x512_S512x512_0_0_1_1_n_n 512 rfl rfl).symm]
  refine Finset.sum_congr rfl fun k _ => ?_
  have hk := ValueIdx.contrEquiv1_symm_val dot_S512x512_S512x512_S512x512_0_0_1_1_n_n 512 rfl rfl k
  have el : dot_S512x512_S512x512_S512x512_0_0_1_1_n_n.lhsIdx (ix2 i j) ((ValueIdx.contrEquiv1 dot_S512x512_S512x512_S512x512_0_0_1_1_n_n 512 rfl rfl).symm k) = ix2 k i := funext fun ax => Fin.ext (by
    match ax with
    | ⟨0, _⟩ => exact (lhs_tt_0 _ _).trans hk
    | ⟨1, _⟩ => exact lhs_tt_1 _ _)
  have er : dot_S512x512_S512x512_S512x512_0_0_1_1_n_n.rhsIdx (ix2 i j) ((ValueIdx.contrEquiv1 dot_S512x512_S512x512_S512x512_0_0_1_1_n_n 512 rfl rfl).symm k) = ix2 k j := funext fun ax => Fin.ext (by
    match ax with
    | ⟨0, _⟩ => exact (rhs_tt_0 _ _).trans hk
    | ⟨1, _⟩ => exact rhs_tt_1 _ _)
  rw [el, er]

/-! ## The layer-norm chain of a block -/

/-- The chain both normalisations of the body run on a [512, 512] block with a [1, 512] scale row and shift row:
    row means (lane sum, as a column, over 512), centred squares' means, the inverse root of that plus the small
    constant broadcast back, then scale and shift. -/
private def lnChain (src : FVec Ideal S512x512 .f32) (g b : Vec Ideal S1x512 .f32) : FVec Ideal S512x512 .f32 :=
  have v13 : FVec Ideal S1x512 .f32 := shapeCast S1x512 g shapeCasts_S1x512_S1x512
  have v15 : FVec Ideal S1x512 .f32 := shapeCast S1x512 b shapeCasts_S1x512_S1x512
  have v16 : FVec Ideal S512 .f32 := multiReduction .add [1] S512 src 0x00000000#32 reduces_S512x512_S512 (.inl rfl) rfl
  have v17 : FVec Ideal S512x1 .f32 := shapeCast S512x1 v16 shapeCasts_S512_S512x1
  have cst_13 : Ideal .f32 := Scalar.ofBits .f32 0x44000000#32
  have v18 : FVec Ideal S512x1 .f32 := broadcast S512x1 cst_13
  have v19 : FVec Ideal S512x1 .f32 := divf v17 v18
  have v20 : FVec Ideal S512x512 .f32 := broadcastTo S512x512 v19 broadcasts_S512x1_S512x512
  have v21 : FVec Ideal S512x512 .f32 := subf src v20
  have v22 : FVec Ideal S512x512 .f32 := mulf v21 v21
  have v23 : FVec Ideal S512 .f32 := multiReduction .add [1] S512 v22 0x00000000#32 reduces_S512x512_S512 (.inl rfl) rfl
  have v24 : FVec Ideal S512x1 .f32 := shapeCast S512x1 v23 shapeCasts_S512_S512x1
  have cst_15 : Ideal .f32 := Scalar.ofBits .f32 0x44000000#32
  have v25 : FVec Ideal S512x1 .f32 := broadcast S512x1 cst_15
  have v26 : FVec Ideal S512x1 .f32 := divf v24 v25
  have v27 : FVec Ideal S512x512 .f32 := broadcastTo S512x512 v19 broadcasts_S512x1_S512x512
  have v28 : FVec Ideal S512x512 .f32 := subf src v27
  have cst_16 : Ideal .f32 := Scalar.ofBits .f32 0x3727C5AC#32
  have v29 : FVec Ideal S512x1 .f32 := broadcast S512x1 cst_16
  have v30 : FVec Ideal S512x1 .f32 := addf v26 v29
  have v31 : FVec Ideal S512x1 .f32 := rsqrt v30
  have v32 : FVec Ideal S512x512 .f32 := broadcastTo S512x512 v31 broadcasts_S512x1_S512x512
  have v33 : FVec Ideal S512x512 .f32 := mulf v28 v32
  have v34 : FVec Ideal S512x512 .f32 := broadcastTo S512x512 v13 broadcasts_S1x512_S512x512
  have v35 : FVec Ideal S512x512 .f32 := mulf v33 v34
  have v36 : FVec Ideal S512x512 .f32 := broadcastTo S512x512 v15 broadcasts_S1x512_S512x512
  have v37 : FVec Ideal S512x512 .f32 := addf v35 v36
  v37

/-- The chain at (r, q) is the layer's row formula of row r of the block and the two parameter rows. -/
private theorem lnChain_apply (src : FVec Ideal S512x512 .f32) (g b : Vec Ideal S1x512 .f32) (r q : Fin 512) :
    lnChain src g b (ix2 r q)
      = Spec.ln (fun k => src (ix2 r k)) (fun k => g (ix2 (0 : Fin 1) k)) (fun k => b (ix2 (0 : Fin 1) k)) q := by
  unfold lnChain
  simp only [addf_apply, mulf_apply, subf_apply, divf_apply, broadcast_apply, row_bcast, col_bcast, col_cast, rsqrt_apply]
  rw [lane_sum, lane_sum]
  simp only [mulf_apply, subf_apply, divf_apply, broadcast_apply, col_bcast, col_cast]
  rw [lane_sum]
  unfold Spec.ln Spec.var Spec.mean
  rfl

/-- The recurrent path's normalisation is the chain on the product block. -/
private theorem pay12_eq (v4 v6 : Vec Ideal S512x512 .f32) (v12 v14 : Vec Ideal S1x512 .f32) :
    k0_pay12 (F := Ideal) v4 v6 v12 v14 = lnChain (k0_pay11 v4 v6) v12 v14 := rfl

/-- The activation block is the chain on the rectified sum of the stimulus product and the normalised recurrent block. -/
private theorem pay14_eq (v7 v9 : FVec Ideal S512x512 .bf16) (v37 : FVec Ideal S512x512 .f32) (v42 v44 : Vec Ideal S1x512 .f32) :
    k0_pay14 (F := Ideal) v7 v9 v37 v42 v44
      = lnChain (maximumf (addf (k0_pay13 v7 v9) v37) (broadcast S512x512 (Scalar.ofBits .f32 0x00000000#32 : Ideal .f32))) v42 v44 := rfl

/-! ## The products the body forms, read at an index -/

/-- The stimulus product block at (r, j): row r of x0 times column j of x2 (the change of format is the identity). -/
private theorem pay13_apply (x0 x2 : Vec Ideal S512x512 .f32) (r j : Fin 512) :
    k0_pay13 (k0_pay8 x0) (k0_pay10 x2) (ix2 r j) = Spec.mm x0 x2 r j := by
  unfold k0_pay13 k0_pay8 k0_pay10
  exact matmul_rc_apply _ _ r j

/-- The recurrent product block at (r, j): row r of x1 times column j of x3. -/
private theorem pay11_apply (x1 x3 : Vec Ideal S512x512 .f32) (r j : Fin 512) :
    k0_pay11 x1 x3 (ix2 r j) = Spec.mm x1 x3 r j := by
  unfold k0_pay11 k0_pay9
  exact matmul_rc_apply _ _ r j

/-- A [1, 512] row broadcast down the rows of [512, 512]: at (p, q), the row at q. -/
private theorem row_bcast' (v : FVec Ideal S1x512 .f32) (p q : Fin 512) :
    broadcastTo S512x512 v broadcasts_S1x512_S512x512 (ix2 p q) = v (ix2 (0 : Fin 1) q) :=
  broadcastTo_1b_ab_apply v _ p q

/-! ## The seven terms -/

/-- The activation block at (r, q): the layer's row formula of row r of the two products and the four
    parameter rows. -/
theorem finalBlk_apply (x0 x1 x2 x3 : Vec Ideal S512x512 .f32) (x6 x7 x8 x9 : Vec Ideal S1x512 .f32) (r q : Fin 512) :
    Terms.finalBlk (F := Ideal) x0 x1 x2 x3 x6 x7 x8 x9 (ix2 r q) =
      Spec.act (Spec.mm x0 x2 r) (Spec.mm x1 x3 r) (fun k => x6 (ix2 (0 : Fin 1) k)) (fun k => x7 (ix2 (0 : Fin 1) k))
        (fun k => x8 (ix2 (0 : Fin 1) k)) (fun k => x9 (ix2 (0 : Fin 1) k)) q := by
  unfold Terms.finalBlk Spec.act
  rw [pay14_eq, lnChain_apply]
  refine congrArg (fun f => Spec.ln f _ _ q) (funext fun k => ?_)
  rw [maximumf_apply, addf_apply, broadcast_apply, pay13_apply, pay12_eq, lnChain_apply]
  have e : (fun j => k0_pay11 x1 x3 (ix2 r j)) = Spec.mm x1 x3 r := funext fun j => pay11_apply x1 x3 r j
  rw [e]
  rfl

/-- The stimulus accumulator after a point at (i, j): what it held plus (x0ᵀ·(x0·x2)) i j. -/
theorem hebStep_apply (x0 x2 s : Vec Ideal S512x512 .f32) (i j : Fin 512) :
    Terms.hebStep (F := Ideal) x0 x2 s (ix2 i j) = s (ix2 i j) + Spec.heb x0 x2 i j := by
  unfold Terms.hebStep k0_pay16 Spec.heb
  simp only [shapeCast_self, addf_apply, matmul_tt_apply]
  refine congrArg (s (ix2 i j) + ·) (Finset.sum_congr rfl fun b _ => ?_)
  show x0 (ix2 b i) * k0_pay13 (k0_pay8 x0) (k0_pay10 x2) (ix2 b j) = _
  rw [pay13_apply]

/-- The recurrent accumulator after a point at (i, j): what it held plus (x1ᵀ·(x1·x3)) i j. -/
theorem recStep_apply (x1 x3 s : Vec Ideal S512x512 .f32) (i j : Fin 512) :
    Terms.recStep (F := Ideal) x1 x3 s (ix2 i j) = s (ix2 i j) + Spec.heb x1 x3 i j := by
  unfold Terms.recStep k0_pay1 k0_pay15 Spec.heb
  simp only [shapeCast_self, addf_apply, matmul_tt_apply]
  refine congrArg (s (ix2 i j) + ·) (Finset.sum_congr rfl fun b _ => ?_)
  show x1 (ix2 b i) * k0_pay11 x1 x3 (ix2 b j) = _
  rw [pay11_apply]

/-- The new stimulus weights at (i, j), from the weights, the step-size row, the decay column and the
    accumulated sum. -/
theorem newW_apply (w : Vec Ideal S512x512 .f32) (al : Vec Ideal S1x512 .f32) (de : Vec Ideal S512x1 .f32)
    (h : Vec Ideal S512x512 .f32) (i j : Fin 512) :
    k0_pay4 (F := Ideal) w al de h (ix2 i j) =
      Spec.unit (Spec.raw (fun a b => h (ix2 a b)) w (fun k => al (ix2 (0 : Fin 1) k)) (fun k => de (ix2 k (0 : Fin 1)))) i j := by
  unfold k0_pay4 k0_pay2 k0_pay3
  simp only [shapeCast_self, divf_apply, subf_apply, addf_apply, mulf_apply, maximumf_apply, broadcast_apply, row_bcast',
    col_bcast, col_cast, sqrt_apply]
  rw [lane_sum]
  simp only [shapeCast_self, subf_apply, addf_apply, mulf_apply, row_bcast', col_bcast]
  unfold Spec.unit Spec.raw
  rfl

/-- The new recurrent weights at (i, j): the same formula. -/
theorem newWr_apply (w : Vec Ideal S512x512 .f32) (al : Vec Ideal S1x512 .f32) (de : Vec Ideal S512x1 .f32)
    (h : Vec Ideal S512x512 .f32) (i j : Fin 512) :
    k0_pay5 (F := Ideal) w al de h (ix2 i j) =
      Spec.unit (Spec.raw (fun a b => h (ix2 a b)) w (fun k => al (ix2 (0 : Fin 1) k)) (fun k => de (ix2 k (0 : Fin 1)))) i j :=
  newW_apply w al de h i j

/-- The block the stimulus accumulator is reset to holds the zero word everywhere. -/
theorem zero0_apply (i : S512x512.Idx) : k0_pay6 (F := Ideal) i = Spec.wZero := by
  unfold k0_pay6
  simp only [shapeCast_self, broadcast_apply]
  rfl

/-- The block the recurrent accumulator is reset to holds the zero word everywhere. -/
theorem zero1_apply (i : S512x512.Idx) : k0_pay7 (F := Ideal) i = Spec.wZero := by
  unfold k0_pay7
  simp only [shapeCast_self, broadcast_apply]
  rfl

end Cert.KernelIdeal.Pay

end
-- ==== Proof.KernelFinal.lean ====
/-
  The activation array after the run.

  The activation is computed row by row, so what point t writes back — the body's activation block of the row blocks
  it holds — is rows 512·t … 512·t + 511 of the layer's activation of the whole batch; every row of the array lies in
  exactly one such block (row b in the block of point b / 512), so the array ends holding the layer's activation.
-/
import proofs.«137702_j20761871909484_1_alg».proof.Proof.Gen.KernelIdeal.Value
import proofs.«137702_j20761871909484_1_alg».proof.Proof.KernelBlocks
import proofs.«137702_j20761871909484_1_alg».proof.Proof.KernelPieces
import proofs.«137702_j20761871909484_1_alg».proof.Proof.KernelPay
import proofs.«137702_j20761871909484_1_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's activation of the whole batch, of the arguments as launched. -/
abbrev finalG (c : Dev nD) : Spec.Mat 32768 512 :=
  Spec.final (aX m c) (aP m c) (aW m c) (aWr m c) (aG1 m c) (aB1 m c) (aG2 m c) (aB2 m c)

/-- Row r of the stimulus product of the blocks a point holds is row 512·t + r of the whole batch's product. -/
private theorem mmX_blk (c : Dev nD) (t : Fin cfg0.N) (r : Fin 512) :
    Spec.mm (bX m c t) (bW m c t) r = Spec.mm (aX m c) (aW m c) (BlockSum.row t.val r) := by
  funext j
  unfold Spec.mm
  simp only [bX_apply, bW_eq]

/-- Row r of the recurrent product of the blocks a point holds is row 512·t + r of the whole batch's product. -/
private theorem mmP_blk (c : Dev nD) (t : Fin cfg0.N) (r : Fin 512) :
    Spec.mm (bP m c t) (bWr m c t) r = Spec.mm (aP m c) (aWr m c) (BlockSum.row t.val r) := by
  funext j
  unfold Spec.mm
  simp only [bP_apply, bWr_eq]

/-- Entry (r, q) of the activation block of the blocks point t holds is entry (512·t + r, q) of the layer's
    activation: the row's two products are the batch's at that row, and the parameter rows are the vectors. -/
private theorem finalBlk_at (c : Dev nD) (t : Fin cfg0.N) (r q : Fin 512) :
    Terms.finalBlk (F := Ideal) (bX m c t) (bP m c t) (bW m c t) (bWr m c t) (bG1 m c t) (bB1 m c t) (bG2 m c t) (bB2 m c t) (ix2 r q)
      = finalG m c (ix2 (BlockSum.row t.val r) q) := by
  refine (Pay.finalBlk_apply (bX m c t) (bP m c t) (bW m c t) (bWr m c t) (bG1 m c t) (bB1 m c t) (bG2 m c t) (bB2 m c t) r q).trans ?_
  show _ = Spec.act (Spec.mm (aX m c) (aW m c) (BlockSum.row t.val r)) (Spec.mm (aP m c) (aWr m c) (BlockSum.row t.val r))
    (fun k => aG1 m c (ix1 k)) (fun k => aB1 m c (ix1 k)) (fun k => aG2 m c (ix1 k)) (fun k => aB2 m c (ix1 k)) q
  rw [mmX_blk m c t r, mmP_blk m c t r]
  simp only [bG1_apply, bB1_apply, bG2_apply, bB2_apply]

/-- Entry (r, q) of the activation array's block at point t is entry (512·t + r, q) of the array. -/
private theorem emb10 (t : Fin cfg0.N) (r q : Fin 512) :
    ((cfg0.win 10).blk t).view.emb (ix2 r q) = (ix2 (BlockSum.row t.val r) q : S32768x512.Idx) := by
  funext a
  apply Fin.ext
  obtain ⟨h00, h01, h10, h11, hA0, hA1, h20, h21, h30, h31, h40, h41, h50, h51, h60, h61, h70, h71, h80, h81, h90, h91, hB0, hB1, hC0, hC1⟩ := idx_facts t
  match a with
  | ⟨0, _⟩ =>
    show win0_10.index t (0 : Fin 2) * 512 + 1 * r.val = (BlockSum.row t.val r).val
    rw [BlockSum.row_val _ (tlt t), hA0]; omega
  | ⟨1, _⟩ =>
    show win0_10.index t (1 : Fin 2) * 512 + 1 * q.val = q.val
    rw [hA1]; omega

/-- What point t writes back to the activation array is block t of the layer's activation. -/
theorem flushed10_eq (c : Dev nD) (t : Fin cfg0.N) :
    (dats m 0 c).flushed 10 t = ((cfg0.win 10).blk t).view.read (Elt Ideal) (finalG m c) := by
  have key : ∀ j : S512x512.Idx, Terms.finalBlk (F := Ideal) (bX m c t) (bP m c t) (bW m c t) (bWr m c t) (bG1 m c t) (bB1 m c t) (bG2 m c t) (bB2 m c t) j
      = finalG m c (((cfg0.win 10).blk t).view.emb j) := by
    intro j
    obtain ⟨r, q, rfl⟩ : ∃ r q, j = ix2 r q := ⟨j 0, j 1, eq_ix2 j⟩
    exact (finalBlk_at m c t r q).trans (congrArg (finalG m c) (emb10 t r q).symm)
  have ht := tlt t
  by_cases h0 : t.val % 64 = 0
  · by_cases h1 : t.val % 64 = 63
    · exfalso; omega
    · rw [flushed10_A m c t h0 h1, Pieces.out10_A]
      funext j
      exact key j
  · by_cases h1 : t.val % 64 = 63
    · rw [flushed10_C m c t h0 h1, Pieces.out10_C]
      funext j
      exact key j
    · rw [flushed10_B m c t h0 h1, Pieces.out10_B]
      funext j
      exact key j

/-- An index of the activation array is in point t's block iff each coordinate is in the block's range on its axis. -/
private theorem mem_blk10 (t : Fin cfg0.N) (i : S32768x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v6_0).slice (win0_10.rect t)).set ↔ _
  rw [View.set_slice_whole, Rect.mem_set_unit]
  exact Iff.rfl

/-- Every row of the activation array lies in some point's block: row b in the block of point b / 512. -/
private theorem cover10 (i : S32768x512.Idx) :
    ∃ t : Fin cfg0.N, (cfg0.win 10).flush t = true ∧ i ∈ ((cfg0.win 10).blk t).view.set := by
  have hi0 : (i 0).val < 32768 := (i 0).isLt
  have hi1 : (i 1).val < 512 := (i 1).isLt
  have hlt : (i 0).val / 512 < 64 := by omega
  refine ⟨⟨(i 0).val / 512, lt_of_lt_of_eq hlt N_0.symm⟩, flush0_10 _, ?_⟩
  rw [mem_blk10]
  obtain ⟨h00, h01, h10, h11, hA0, hA1, h20, h21, h30, h31, h40, h41, h50, h51, h60, h61, h70, h71, h80, h81, h90, h91, hB0, hB1, hC0, hC1⟩ := idx_facts ⟨(i 0).val / 512, lt_of_lt_of_eq hlt N_0.symm⟩
  intro a
  match a with
  | ⟨0, _⟩ =>
    show win0_10.index ⟨(i 0).val / 512, lt_of_lt_of_eq hlt N_0.symm⟩ (0 : Fin 2) * 512 ≤ (i 0).val ∧ (i 0).val < win0_10.index ⟨(i 0).val / 512, lt_of_lt_of_eq hlt N_0.symm⟩ (0 : Fin 2) * 512 + 512
    rw [hA0]
    show (i 0).val / 512 * 512 ≤ (i 0).val ∧ (i 0).val < (i 0).val / 512 * 512 + 512
    omega
  | ⟨1, _⟩ =>
    show win0_10.index ⟨(i 0).val / 512, lt_of_lt_of_eq hlt N_0.symm⟩ (1 : Fin 2) * 512 ≤ (i 1).val ∧ (i 1).val < win0_10.index ⟨(i 0).val / 512, lt_of_lt_of_eq hlt N_0.symm⟩ (1 : Fin 2) * 512 + 512
    rw [hA1]
    omega

/-- After the run the activation array holds the layer's activation. -/
theorem final10 (c : Dev nD) : (dats m 0 c).arrAt 10 cfg0.N = finalG m c :=
  (dats m 0 c).arrAt_eq_of_cover 10 (finalG m c) (fun t _ => flushed10_eq m c t) (fun i => cover10 i)

end Cert.KernelIdeal.KValue

end
-- ==== Proof.KernelAcc.lean ====
/-
  The two accumulators and the two weight arrays.

  Each accumulator is reset to the zero block at the first point and takes, at every point s, that point's
  Xₛᵀ·(Xₛ·W), where Xₛ is rows 512·s … 512·s + 511 of the batch. So after point n it holds zero plus the sum of the
  first n + 1 block sums; after the last point, the sum of all 64, which is the sum over the whole batch (a sum over
  32768 rows taken 512 at a time). The last point alone stores and writes back the two weight blocks, each the
  whole array, from the accumulators as it leaves them: the layer's new weights.
-/
import proofs.«137702_j20761871909484_1_alg».proof.Proof.Gen.KernelIdeal.Value
import proofs.«137702_j20761871909484_1_alg».proof.Proof.KernelBlocks
import proofs.«137702_j20761871909484_1_alg».proof.Proof.KernelPieces
import proofs.«137702_j20761871909484_1_alg».proof.Proof.KernelPay
import proofs.«137702_j20761871909484_1_alg».proof.Proof.Spec
import proofs.«137702_j20761871909484_1_alg».proof.Proof.BlockSum
import Idealize.ShloMosaic.Lib.Pipeline.Value
import Idealize.ShloMosaic.Lib.ValueIdx
import Idealize.ShloMosaic.PureOps.Ideal.Laws

set_option maxRecDepth 16384

noncomputable section

namespace Cert.KernelIdeal.KValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Block sums -/

/-- Rows 512·s … 512·s + 511 of a batch matrix. -/
def blockOf (Xa : Spec.Mat 32768 512) (s : ℕ) : Spec.Mat 512 512 := fun y => Xa (ix2 (BlockSum.row s (y 0)) (y 1))

/-- Block s's contribution to Xᵀ·(X·W), as a 512 × 512 array. -/
def hebAdd (Xa : Spec.Mat 32768 512) (Wa : Spec.Mat 512 512) (s : ℕ) : S512x512.Idx → EReal :=
  fun i => Spec.heb (blockOf Xa s) Wa (i 0) (i 1)

/-- Zero plus the 64 block sums is the sum over the whole batch. -/
theorem hebAdd_sum (Xa : Spec.Mat 32768 512) (Wa : Spec.Mat 512 512) (i j : Fin 512) :
    Spec.wZero + ∑ s ∈ Finset.range 64, hebAdd Xa Wa s (ix2 i j) = Spec.heb Xa Wa i j := by
  rw [show (Spec.wZero : EReal) = 0 from Ideal.ofBits_zero_f32, zero_add]
  show _ = ∑ b : Fin 32768, Xa (ix2 b i) * Spec.mm Xa Wa b j
  rw [← BlockSum.sum_blocks (fun b => Xa (ix2 b i) * Spec.mm Xa Wa b j)]
  rfl

theorem bX_eq (c : Dev nD) (t : Fin cfg0.N) : bX m c t = blockOf (aX m c) t.val := by
  funext j
  show bX m c t j = aX m c (ix2 (BlockSum.row t.val (j 0)) (j 1))
  rw [← bX_apply m c t (j 0) (j 1)]
  exact congrArg (bX m c t) (eq_ix2 j)

theorem bP_eq (c : Dev nD) (t : Fin cfg0.N) : bP m c t = blockOf (aP m c) t.val := by
  funext j
  show bP m c t j = aP m c (ix2 (BlockSum.row t.val (j 0)) (j 1))
  rw [← bP_apply m c t (j 0) (j 1)]
  exact congrArg (bP m c t) (eq_ix2 j)

/-! ## The stimulus accumulator -/

/-- After point n the stimulus accumulator holds zero plus the first n + 1 block sums. -/
theorem acc0_fold (c : Dev nD) (n : ℕ) (hn : n < cfg0.N) (i : S512x512.Idx) :
    (outsAt0 m c n hn).2.2.2.1 i = Spec.wZero + ∑ s ∈ Finset.range (n + 1), hebAdd (aX m c) (aW m c) s i := by
  rw [soutsAt0_0_sweep m c n hn]
  have hN : n < 64 := lt_of_lt_of_eq hn N_0
  have key := Pipeline.accAt_add_apply (N := cfg0.N)
    (fun n h => scAt0_0 m c n h (VS0_0.read (Elt Ideal) VS0_0.junk)) (scAt0_0 m c)
    (fun _ => Spec.wZero) (hebAdd (aX m c) (aW m c)) 0 63 ?ha ?hg n (by omega) (by omega) i
  · simpa only [Nat.zero_add] using key
  case ha =>
    intro h i
    obtain ⟨p, q, rfl⟩ : ∃ (p q : Fin 512), i = ix2 p q := ⟨i 0, i 1, eq_ix2 i⟩
    unfold scAt0_0
    rw [dif_pos (by decide : 0 % 64 = 0), dif_neg (by decide : ¬0 % 64 = 63), Pieces.sout0_A]
    show Terms.hebStep (F := Ideal) (bX m c ⟨0, h⟩) (bW m c ⟨0, h⟩) (k0_pay6 (F := Ideal)) (ix2 p q) = _
    refine (Pay.hebStep_apply (bX m c ⟨0, h⟩) (bW m c ⟨0, h⟩) (k0_pay6 (F := Ideal)) p q).trans ?_
    rw [Pay.zero0_apply, bX_eq, bW_eq]
    rfl
  case hg =>
    intro n h acc i hpos hle
    obtain ⟨p, q, rfl⟩ : ∃ (p q : Fin 512), i = ix2 p q := ⟨i 0, i 1, eq_ix2 i⟩
    have h0 : ¬n % 64 = 0 := by omega
    unfold scAt0_0
    rw [dif_neg h0]
    by_cases h1 : n % 64 = 63
    · rw [dif_pos h1, Pieces.sout0_C]
      show Terms.hebStep (F := Ideal) (bX m c ⟨n, h⟩) (bW m c ⟨n, h⟩) acc (ix2 p q) = _
      refine (Pay.hebStep_apply (bX m c ⟨n, h⟩) (bW m c ⟨n, h⟩) acc p q).trans ?_
      rw [bX_eq, bW_eq]
      rfl
    · rw [dif_neg h1, Pieces.sout0_B]
      show Terms.hebStep (F := Ideal) (bX m c ⟨n, h⟩) (bW m c ⟨n, h⟩) acc (ix2 p q) = _
      refine (Pay.hebStep_apply (bX m c ⟨n, h⟩) (bW m c ⟨n, h⟩) acc p q).trans ?_
      rw [bX_eq, bW_eq]
      rfl

/-! ## The recurrent accumulator -/

/-- After point n the recurrent accumulator holds zero plus the first n + 1 block sums. -/
theorem acc1_fold (c : Dev nD) (n : ℕ) (hn : n < cfg0.N) (i : S512x512.Idx) :
    (outsAt0 m c n hn).2.2.2.2 i = Spec.wZero + ∑ s ∈ Finset.range (n + 1), hebAdd (aP m c) (aWr m c) s i := by
  rw [soutsAt0_1_sweep m c n hn]
  have hN : n < 64 := lt_of_lt_of_eq hn N_0
  have key := Pipeline.accAt_add_apply (N := cfg0.N)
    (fun n h => scAt0_1 m c n h (VS0_1.read (Elt Ideal) VS0_1.junk)) (scAt0_1 m c)
    (fun _ => Spec.wZero) (hebAdd (aP m c) (aWr m c)) 0 63 ?ha ?hg n (by omega) (by omega) i
  · simpa only [Nat.zero_add] using key
  case ha =>
    intro h i
    obtain ⟨p, q, rfl⟩ : ∃ (p q : Fin 512), i = ix2 p q := ⟨i 0, i 1, eq_ix2 i⟩
    unfold scAt0_1
    rw [dif_pos (by decide : 0 % 64 = 0), dif_neg (by decide : ¬0 % 64 = 63), Pieces.sout1_A]
    show Terms.recStep (F := Ideal) (bP m c ⟨0, h⟩) (bWr m c ⟨0, h⟩) (k0_pay7 (F := Ideal)) (ix2 p q) = _
    refine (Pay.recStep_apply (bP m c ⟨0, h⟩) (bWr m c ⟨0, h⟩) (k0_pay7 (F := Ideal)) p q).trans ?_
    rw [Pay.zero1_apply, bP_eq, bWr_eq]
    rfl
  case hg =>
    intro n h acc i hpos hle
    obtain ⟨p, q, rfl⟩ : ∃ (p q : Fin 512), i = ix2 p q := ⟨i 0, i 1, eq_ix2 i⟩
    have h0 : ¬n % 64 = 0 := by omega
    unfold scAt0_1
    rw [dif_neg h0]
    by_cases h1 : n % 64 = 63
    · rw [dif_pos h1, Pieces.sout1_C]
      show Terms.recStep (F := Ideal) (bP m c ⟨n, h⟩) (bWr m c ⟨n, h⟩) acc (ix2 p q) = _
      refine (Pay.recStep_apply (bP m c ⟨n, h⟩) (bWr m c ⟨n, h⟩) acc p q).trans ?_
      rw [bP_eq, bWr_eq]
      rfl
    · rw [dif_neg h1, Pieces.sout1_B]
      show Terms.recStep (F := Ideal) (bP m c ⟨n, h⟩) (bWr m c ⟨n, h⟩) acc (ix2 p q) = _
      refine (Pay.recStep_apply (bP m c ⟨n, h⟩) (bWr m c ⟨n, h⟩) acc p q).trans ?_
      rw [bP_eq, bWr_eq]
      rfl

/-! ## The two weight arrays -/

/-- The last grid point. -/
abbrev tLast : Fin cfg0.N := ⟨63, by rw [show cfg0.N = 64 from N_0]; decide⟩

/-- The layer's new stimulus weights, of the arguments as launched. -/
abbrev newWG (c : Dev nD) : Spec.Mat 512 512 := Spec.newW (aX m c) (aW m c) (aAl m c) (aDe m c)

/-- At the last point the accumulator, as that point leaves it, holds the sum over the whole batch. -/
theorem acc0_last (c : Dev nD) (t : Fin cfg0.N) (h0 : ¬t.val % 64 = 0) (h1 : t.val % 64 = 63) (a b : Fin 512) :
    Terms.hebStep (F := Ideal) (bX m c t) (bW m c t)
      ((outsAt0 m c (t.val - 1) (Nat.lt_of_le_of_lt (Nat.sub_le _ _) t.isLt)).2.2.2.1) (ix2 a b)
      = Spec.heb (aX m c) (aW m c) a b := by
  have ht : t.val = 63 := by have := tlt t; omega
  have e : (outsAt0 m c t.val t.isLt).2.2.2.1
      = Terms.hebStep (F := Ideal) (bX m c t) (bW m c t)
          ((outsAt0 m c (t.val - 1) (Nat.lt_of_le_of_lt (Nat.sub_le _ _) t.isLt)).2.2.2.1) := by
    rw [outsAt0_C m c t h0 h1]
    dsimp only
    exact Pieces.sout0_C ..
  rw [← e, acc0_fold m c t.val t.isLt (ix2 a b), ht]
  exact hebAdd_sum (aX m c) (aW m c) a b

/-- What the last point writes back to the stimulus-weight array is (the one block of) the layer's new weights. -/
theorem flushed11_eq (c : Dev nD) (t : Fin cfg0.N) (hf : (cfg0.win 11).flush t = true) :
    (dats m 0 c).flushed 11 t = ((cfg0.win 11).blk t).view.read (Elt Ideal) (newWG m c) := by
  have h1 : t.val % 64 = 63 := (flush0_11 t).mp hf
  have h0 : ¬t.val % 64 = 0 := by omega
  rw [flushed11_C m c t h0 h1, Pieces.out11_C]
  funext j
  obtain ⟨p, q, rfl⟩ : ∃ (p q : Fin 512), j = ix2 p q := ⟨j 0, j 1, eq_ix2 j⟩
  obtain ⟨h00, h01, h10, h11, hA0, hA1, h20, h21, h30, h31, h40, h41, h50, h51, h60, h61, h70, h71, h80, h81, h90, h91, hB0, hB1, hC0, hC1⟩ := idx_facts t
  have he : ((cfg0.win 11).blk t).view.emb (ix2 p q) = (ix2 p q : S512x512.Idx) := by
    funext a
    apply Fin.ext
    match a with
    | ⟨0, _⟩ =>
      show win0_11.index t (0 : Fin 2) * 512 + 1 * p.val = p.val
      rw [hB0]; omega
    | ⟨1, _⟩ =>
      show win0_11.index t (1 : Fin 2) * 512 + 1 * q.val = q.val
      rw [hB1]; omega
  show k0_pay4 (F := Ideal) (bW m c t) (bAl m c t) (bDe m c t)
      (Terms.hebStep (F := Ideal) (bX m c t) (bW m c t)
        ((outsAt0 m c (t.val - 1) (Nat.lt_of_le_of_lt (Nat.sub_le _ _) t.isLt)).2.2.2.1)) (ix2 p q)
    = newWG m c (((cfg0.win 11).blk t).view.emb (ix2 p q))
  rw [he]
  refine (Pay.newW_apply (bW m c t) (bAl m c t) (bDe m c t) _ p q).trans ?_
  have e1 : (fun a b => Terms.hebStep (F := Ideal) (bX m c t) (bW m c t)
        ((outsAt0 m c (t.val - 1) (Nat.lt_of_le_of_lt (Nat.sub_le _ _) t.isLt)).2.2.2.1) (ix2 a b))
      = Spec.heb (aX m c) (aW m c) := funext fun a => funext fun b => acc0_last m c t h0 h1 a b
  have e2 : (fun k => bAl m c t (ix2 (0 : Fin 1) k)) = fun k => aAl m c (ix1 k) := funext fun k => bAl_apply m c t k
  have e3 : (fun k => bDe m c t (ix2 k (0 : Fin 1))) = fun k => aDe m c (ix1 k) := funext fun k => bDe_apply m c t k
  rw [e1, e2, e3, bW_eq]
  rfl

/-- After the run the weight array holds the layer's new weights: the last point's block is the whole array. -/
theorem final11 (c : Dev nD) : (dats m 0 c).arrAt 11 cfg0.N = newWG m c :=
  (dats m 0 c).arrAt_eq_of_cover 11 (newWG m c) (flushed11_eq m c) fun i =>
    ⟨tLast, (flush0_11 tLast).mpr (by decide), by
      show i ∈ ((View.whole main_v6_1).slice (win0_11.rect tLast)).set
      rw [View.set_slice_whole, Rect.mem_set_unit]
      intro a
      have b0 : (i 0 : Nat) < 512 := (i 0).isLt
      have b1 : (i 1 : Nat) < 512 := (i 1).isLt
      obtain ⟨h00, h01, h10, h11, hA0, hA1, h20, h21, h30, h31, h40, h41, h50, h51, h60, h61, h70, h71, h80, h81, h90, h91, hB0, hB1, hC0, hC1⟩ :=
        idx_facts tLast
      match a with
      | ⟨0, _⟩ =>
        show win0_11.index tLast (0 : Fin 2) * 512 ≤ (i 0 : Nat) ∧ (i 0 : Nat) < win0_11.index tLast (0 : Fin 2) * 512 + 512
        rw [hB0]; omega
      | ⟨1, _⟩ =>
        show win0_11.index tLast (1 : Fin 2) * 512 ≤ (i 1 : Nat) ∧ (i 1 : Nat) < win0_11.index tLast (1 : Fin 2) * 512 + 512
        rw [hB1]; omega⟩

/-- The layer's new recurrent weights, of the arguments as launched. -/
abbrev newWrG (c : Dev nD) : Spec.Mat 512 512 := Spec.newW (aP m c) (aWr m c) (aAl m c) (aDe m c)

/-- At the last point the accumulator, as that point leaves it, holds the sum over the whole batch. -/
theorem acc1_last (c : Dev nD) (t : Fin cfg0.N) (h0 : ¬t.val % 64 = 0) (h1 : t.val % 64 = 63) (a b : Fin 512) :
    Terms.recStep (F := Ideal) (bP m c t) (bWr m c t)
      ((outsAt0 m c (t.val - 1) (Nat.lt_of_le_of_lt (Nat.sub_le _ _) t.isLt)).2.2.2.2) (ix2 a b)
      = Spec.heb (aP m c) (aWr m c) a b := by
  have ht : t.val = 63 := by have := tlt t; omega
  have e : (outsAt0 m c t.val t.isLt).2.2.2.2
      = Terms.recStep (F := Ideal) (bP m c t) (bWr m c t)
          ((outsAt0 m c (t.val - 1) (Nat.lt_of_le_of_lt (Nat.sub_le _ _) t.isLt)).2.2.2.2) := by
    rw [outsAt0_C m c t h0 h1]
    dsimp only
    exact Pieces.sout1_C ..
  rw [← e, acc1_fold m c t.val t.isLt (ix2 a b), ht]
  exact hebAdd_sum (aP m c) (aWr m c) a b

/-- What the last point writes back to the recurrent-weight array is (the one block of) the layer's new weights. -/
theorem flushed12_eq (c : Dev nD) (t : Fin cfg0.N) (hf : (cfg0.win 12).flush t = true) :
    (dats m 0 c).flushed 12 t = ((cfg0.win 12).blk t).view.read (Elt Ideal) (newWrG m c) := by
  have h1 : t.val % 64 = 63 := (flush0_12 t).mp hf
  have h0 : ¬t.val % 64 = 0 := by omega
  rw [flushed12_C m c t h0 h1, Pieces.out12_C]
  funext j
  obtain ⟨p, q, rfl⟩ : ∃ (p q : Fin 512), j = ix2 p q := ⟨j 0, j 1, eq_ix2 j⟩
  obtain ⟨h00, h01, h10, h11, hA0, hA1, h20, h21, h30, h31, h40, h41, h50, h51, h60, h61, h70, h71, h80, h81, h90, h91, hB0, hB1, hC0, hC1⟩ := idx_facts t
  have he : ((cfg0.win 12).blk t).view.emb (ix2 p q) = (ix2 p q : S512x512.Idx) := by
    funext a
    apply Fin.ext
    match a with
    | ⟨0, _⟩ =>
      show win0_12.index t (0 : Fin 2) * 512 + 1 * p.val = p.val
      rw [hC0]; omega
    | ⟨1, _⟩ =>
      show win0_12.index t (1 : Fin 2) * 512 + 1 * q.val = q.val
      rw [hC1]; omega
  show k0_pay5 (F := Ideal) (bWr m c t) (bAl m c t) (bDe m c t)
      (Terms.recStep (F := Ideal) (bP m c t) (bWr m c t)
        ((outsAt0 m c (t.val - 1) (Nat.lt_of_le_of_lt (Nat.sub_le _ _) t.isLt)).2.2.2.2)) (ix2 p q)
    = newWrG m c (((cfg0.win 12).blk t).view.emb (ix2 p q))
  rw [he]
  refine (Pay.newWr_apply (bWr m c t) (bAl m c t) (bDe m c t) _ p q).trans ?_
  have e1 : (fun a b => Terms.recStep (F := Ideal) (bP m c t) (bWr m c t)
        ((outsAt0 m c (t.val - 1) (Nat.lt_of_le_of_lt (Nat.sub_le _ _) t.isLt)).2.2.2.2) (ix2 a b))
      = Spec.heb (aP m c) (aWr m c) := funext fun a => funext fun b => acc1_last m c t h0 h1 a b
  have e2 : (fun k => bAl m c t (ix2 (0 : Fin 1) k)) = fun k => aAl m c (ix1 k) := funext fun k => bAl_apply m c t k
  have e3 : (fun k => bDe m c t (ix2 k (0 : Fin 1))) = fun k => aDe m c (ix1 k) := funext fun k => bDe_apply m c t k
  rw [e1, e2, e3, bWr_eq]
  rfl

/-- After the run the weight array holds the layer's new weights: the last point's block is the whole array. -/
theorem final12 (c : Dev nD) : (dats m 0 c).arrAt 12 cfg0.N = newWrG m c :=
  (dats m 0 c).arrAt_eq_of_cover 12 (newWrG m c) (flushed12_eq m c) fun i =>
    ⟨tLast, (flush0_12 tLast).mpr (by decide), by
      show i ∈ ((View.whole main_v6_2).slice (win0_12.rect tLast)).set
      rw [View.set_slice_whole, Rect.mem_set_unit]
      intro a
      have b0 : (i 0 : Nat) < 512 := (i 0).isLt
      have b1 : (i 1 : Nat) < 512 := (i 1).isLt
      obtain ⟨h00, h01, h10, h11, hA0, hA1, h20, h21, h30, h31, h40, h41, h50, h51, h60, h61, h70, h71, h80, h81, h90, h91, hB0, hB1, hC0, hC1⟩ :=
        idx_facts tLast
      match a with
      | ⟨0, _⟩ =>
        show win0_12.index tLast (0 : Fin 2) * 512 ≤ (i 0 : Nat) ∧ (i 0 : Nat) < win0_12.index tLast (0 : Fin 2) * 512 + 512
        rw [hC0]; omega
      | ⟨1, _⟩ =>
        show win0_12.index tLast (1 : Fin 2) * 512 ≤ (i 1 : Nat) ∧ (i 1 : Nat) < win0_12.index tLast (1 : Fin 2) * 512 + 512
        rw [hC1]; omega⟩

end Cert.KernelIdeal.KValue

end
-- ==== Proof.KernelRun.lean ====
/-
  The kernel's run, read: at the ideal values every weakly fair execution ends with the activation array at the
  layer's activation of the batch and the two weight arrays at the layer's new weights, the arguments unchanged.
-/
import proofs.«137702_j20761871909484_1_alg».proof.Proof.Gen.KernelIdeal.Value
import proofs.«137702_j20761871909484_1_alg».proof.Proof.KernelFinal
import proofs.«137702_j20761871909484_1_alg».proof.Proof.KernelAcc

noncomputable section

namespace Cert.KernelIdeal.KValue

open Cert.KernelIdeal Cert.KernelIdeal.Gen Cert.KernelIdeal.Value
open Idealize.ShloMosaic Idealize.ShloMosaic.TcCoe Idealize.SL.Sem

variable (m : (ℓ : Loc nD τ sig) → Buf (Elt Ideal) ℓ) (ρ : Dev nD → PrngReg)

/-- The three result arrays after the run are the layer's three results of the arguments as launched. -/
theorem run : θ_run defs (onTc (τ := τ) (main (F := Ideal))) ⟨m, fun _ => 0, ρ⟩ fun r => ∀ c : Dev nD,
      r.2.mem ((c : Thread nD τ).loc main_v6_0) = finalG m c
      ∧ r.2.mem ((c : Thread nD τ).loc main_v6_1) = newWG m c
      ∧ r.2.mem ((c : Thread nD τ).loc main_v6_2) = newWrG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c),
      (h c).2.2.1.trans (final12 m c), (h c).2.2.2⟩)
    (run_blocks m ρ)

end Cert.KernelIdeal.KValue

end
-- ==== Proof.RefValue.lean ====
/-
  The reference's three results, at the ideal values, are the layer's formulas (Spec.lean) of its arguments:
  read one operation at a time, every broadcast reads its operand at the matching row or column, every
  `reduce add` is its initial zero plus the row sum, and each `dot_general` is a sum over its contracted axis.
-/
import proofs.«137702_j20761871909484_1_alg».proof.Proof.Gen.ReferenceIdeal.Read
import proofs.«137702_j20761871909484_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The recurrent path: the product P·Wr and its layer normalisation (operations 0 to 24) -/

section Recurrent

variable (x1 : (⟨S32768x512, .f32⟩ : BufTy).Contents (Elt Ideal)) (x3 : (⟨S512x512, .f32⟩ : BufTy).Contents (Elt Ideal))

/-- Entry (p, q) of the recurrent product is the sum over the contracted axis. -/
private theorem v0_at (p : Fin 32768) (q : Fin 512) :
    Read.val_main_v0 (F := Ideal) x1 x3 (ix2 p q) = Spec.mm x1 x3 p q := by
  rw [Read.val_main_v0_apply]
  refine Finset.sum_congr rfl fun k _ => ?_
  rw [show Read.lidx_main_v0 (ix2 p q) k = ix2 p k from
        funext fun a => Fin.ext (by match a with | ⟨0, _⟩ => rfl | ⟨1, _⟩ => rfl),
      show Read.ridx_main_v0 (ix2 p q) k = ix2 k q from
        funext fun a => Fin.ext (by match a with | ⟨0, _⟩ => rfl | ⟨1, _⟩ => rfl)]

/-- The row sum of the product: the zero it starts from adds nothing. -/
private theorem v1_at (p : Fin 32768) :
    Read.val_main_v1 (F := Ideal) x1 x3 (ix1 p) = ∑ k : Fin 512, Spec.mm x1 x3 p k := by
  rw [Read.val_main_v1_apply]
  show Ideal.ofBits .f32 0x00000000#32 + _ = _
  rw [Ideal.ofBits_zero_f32, zero_add]
  refine Finset.sum_congr rfl fun k _ => ?_
  rw [show Read.idx_main_v1 (ix1 p) k = ix2 p k from
        funext fun a => Fin.ext (by match a with | ⟨0, _⟩ => rfl | ⟨1, _⟩ => rfl), v0_at]

/-- The row mean, kept as a column. -/
private theorem v4_at (p : Fin 32768) :
    Read.val_main_v4 (F := Ideal) x1 x3 (ix2 p (0 : Fin 1)) = Spec.mean (Spec.mm x1 x3 p) := by
  rw [Read.val_main_v4_apply, Read.val_main_v2_apply, Read.val_main_v3_apply,
    show Read.idx_main_v2 (ix2 p (0 : Fin 1)) = ix1 p from
      funext fun a => Fin.ext (by match a with | ⟨0, _⟩ => rfl), v1_at]
  rfl

/-- The mean spread along its row (the copy the variance uses). -/
private theorem v5_at (p : Fin 32768) (q : Fin 512) :
    Read.val_main_v5 (F := Ideal) x1 x3 (ix2 p q) = Spec.mean (Spec.mm x1 x3 p) := by
  rw [Read.val_main_v5_apply,
    show Read.idx_main_v5 (ix2 p q) = ix2 p (0 : Fin 1) from
      funext fun a => Fin.ext (by match a with | ⟨0, _⟩ => rfl | ⟨1, _⟩ => rfl), v4_at]

/-- The mean spread along its row (the copy the centred entry uses). -/
private theorem v12_at (p : Fin 32768) (q : Fin 512) :
    Read.val_main_v12 (F := Ideal) x1 x3 (ix2 p q) = Spec.mean (Spec.mm x1 x3 p) := by
  rw [Read.val_main_v12_apply,
    show Read.idx_main_v12 (ix2 p q) = ix2 p (0 : Fin 1) from
      funext fun a => Fin.ext (by match a with | ⟨0, _⟩ => rfl | ⟨1, _⟩ => rfl), v4_at]

/-- The squared deviation of an entry from its row's mean. -/
private theorem v7_at (p : Fin 32768) (q : Fin 512) :
    Read.val_main_v7 (F := Ideal) x1 x3 (ix2 p q)
      = (Spec.mm x1 x3 p q - Spec.mean (Spec.mm x1 x3 p)) * (Spec.mm x1 x3 p q - Spec.mean (Spec.mm x1 x3 p)) := by
  rw [Read.val_main_v7_apply, Read.val_main_v6_apply, v5_at, v0_at]
  rfl

/-- The row sum of the squared deviations. -/
private theorem v8_at (p : Fin 32768) :
    Read.val_main_v8 (F := Ideal) x1 x3 (ix1 p)
      = ∑ k : Fin 512, (Spec.mm x1 x3 p k - Spec.mean (Spec.mm x1 x3 p)) * (Spec.mm x1 x3 p k - Spec.mean (Spec.mm x1 x3 p)) := by
  rw [Read.val_main_v8_apply]
  show Ideal.ofBits .f32 0x00000000#32 + _ = _
  rw [Ideal.ofBits_zero_f32, zero_add]
  refine Finset.sum_congr rfl fun k _ => ?_
  rw [show Read.idx_main_v8 (ix1 p) k = ix2 p k from
        funext fun a => Fin.ext (by match a with | ⟨0, _⟩ => rfl | ⟨1, _⟩ => rfl), v7_at]

/-- The inverse root of the row's variance plus the constant, kept as a column. -/
private theorem v16_at (p : Fin 32768) :
    Read.val_main_v16 (F := Ideal) x1 x3 (ix2 p (0 : Fin 1))
      = Ideal.rsqrt (Spec.var (Spec.mm x1 x3 p) + Spec.wEpsLN) := by
  rw [Read.val_main_v16_apply, Read.val_main_v15_apply, Read.val_main_v11_apply, Read.val_main_v9_apply,
    Read.val_main_v10_apply, Read.val_main_v14_apply,
    show Read.idx_main_v9 (ix2 p (0 : Fin 1)) = ix1 p from
      funext fun a => Fin.ext (by match a with | ⟨0, _⟩ => rfl), v8_at]
  rfl

/-- The normalised entry, before the scale and the shift. -/
private theorem v18_at (p : Fin 32768) (q : Fin 512) :
    Read.val_main_v18 (F := Ideal) x1 x3 (ix2 p q)
      = (Spec.mm x1 x3 p q - Spec.mean (Spec.mm x1 x3 p)) * Ideal.rsqrt (Spec.var (Spec.mm x1 x3 p) + Spec.wEpsLN) := by
  rw [Read.val_main_v18_apply, Read.val_main_v13_apply, Read.val_main_v17_apply, v12_at, v0_at,
    show Read.idx_main_v17 (ix2 p q) = ix2 p (0 : Fin 1) from
      funext fun a => Fin.ext (by match a with | ⟨0, _⟩ => rfl | ⟨1, _⟩ => rfl), v16_at]
  rfl

end Recurrent

/-- The recurrent scale vector spread down the rows: at (p, q), its entry q. -/
private theorem v20_at (x8 : (⟨S512, .f32⟩ : BufTy).Contents (Elt Ideal)) (p : Fin 32768) (q : Fin 512) :
    Read.val_main_v20 (F := Ideal) x8 (ix2 p q) = x8 (ix1 q) := by
  rw [Read.val_main_v20_apply, Read.val_main_v19_apply]
  exact congrArg x8 (funext fun a => Fin.ext (by match a with | ⟨0, _⟩ => rfl))

/-- The recurrent shift vector spread down the rows: at (p, q), its entry q. -/
private theorem v23_at (x9 : (⟨S512, .f32⟩ : BufTy).Contents (Elt Ideal)) (p : Fin 32768) (q : Fin 512) :
    Read.val_main_v23 (F := Ideal) x9 (ix2 p q) = x9 (ix1 q) := by
  rw [Read.val_main_v23_apply, Read.val_main_v22_apply]
  exact congrArg x9 (funext fun a => Fin.ext (by match a with | ⟨0, _⟩ => rfl))

/-- Operations 0 to 24 are the layer normalisation of a row of the recurrent product. -/
private theorem v24_at (x1 : (⟨S32768x512, .f32⟩ : BufTy).Contents (Elt Ideal)) (x3 : (⟨S512x512, .f32⟩ : BufTy).Contents (Elt Ideal))
    (x8 x9 : (⟨S512, .f32⟩ : BufTy).Contents (Elt Ideal)) (p : Fin 32768) (q : Fin 512) :
    Read.val_main_v24 (F := Ideal) x1 x3 x8 x9 (ix2 p q)
      = Spec.ln (Spec.mm x1 x3 p) (fun k => x8 (ix1 k)) (fun k => x9 (ix1 k)) q := by
  rw [Read.val_main_v24_apply, Read.val_main_v21_apply, v18_at, v20_at, v23_at]
  rfl

/-! ## The stimulus path and the activation (operations 25 to 51) -/

/-- Entry (p, q) of the stimulus product is the sum over the contracted axis. -/
private theorem v25_at (x0 : (⟨S32768x512, .f32⟩ : BufTy).Contents (Elt Ideal)) (x2 : (⟨S512x512, .f32⟩ : BufTy).Contents (Elt Ideal))
    (p : Fin 32768) (q : Fin 512) :
    Read.val_main_v25 (F := Ideal) x0 x2 (ix2 p q) = Spec.mm x0 x2 p q := by
  rw [Read.val_main_v25_apply]
  refine Finset.sum_congr rfl fun k _ => ?_
  rw [show Read.lidx_main_v25 (ix2 p q) k = ix2 p k from
        funext fun a => Fin.ext (by match a with | ⟨0, _⟩ => rfl | ⟨1, _⟩ => rfl),
      show Read.ridx_main_v25 (ix2 p q) k = ix2 k q from
        funext fun a => Fin.ext (by match a with | ⟨0, _⟩ => rfl | ⟨1, _⟩ => rfl)]

/-- A row of the stimulus product plus the normalised recurrent product, floored at zero: what the second
    layer normalisation is taken of. -/
private def pre (x0 x1 : (⟨S32768x512, .f32⟩ : BufTy).Contents (Elt Ideal)) (x2 x3 : (⟨S512x512, .f32⟩ : BufTy).Contents (Elt Ideal))
    (x8 x9 : (⟨S512, .f32⟩ : BufTy).Contents (Elt Ideal)) (p : Fin 32768) : Fin 512 → EReal := fun j =>
  max (Spec.mm x0 x2 p j + Spec.ln (Spec.mm x1 x3 p) (fun k => x8 (ix1 k)) (fun k => x9 (ix1 k)) j) Spec.wZero

section Activation

variable (x0 x1 : (⟨S32768x512, .f32⟩ : BufTy).Contents (Elt Ideal)) (x2 x3 : (⟨S512x512, .f32⟩ : BufTy).Contents (Elt Ideal))
  (x8 x9 : (⟨S512, .f32⟩ : BufTy).Contents (Elt Ideal))

/-- The floored sum at (p, q). -/
private theorem v27_at (p : Fin 32768) (q : Fin 512) :
    Read.val_main_v27 (F := Ideal) x0 x1 x2 x3 x8 x9 (ix2 p q) = pre x0 x1 x2 x3 x8 x9 p q := by
  rw [Read.val_main_v27_apply, Read.val_main_v26_apply, v25_at, v24_at, Read.val_main_call0_v0_apply]
  rfl

/-- Its row sum: the zero it starts from adds nothing. -/
private theorem v28_at (p : Fin 32768) :
    Read.val_main_v28 (F := Ideal) x0 x1 x2 x3 x8 x9 (ix1 p) = ∑ k : Fin 512, pre x0 x1 x2 x3 x8 x9 p k := by
  rw [Read.val_main_v28_apply]
  show Ideal.ofBits .f32 0x00000000#32 + _ = _
  rw [Ideal.ofBits_zero_f32, zero_add]
  refine Finset.sum_congr rfl fun k _ => ?_
  rw [show Read.idx_main_v28 (ix1 p) k = ix2 p k from
        funext fun a => Fin.ext (by match a with | ⟨0, _⟩ => rfl | ⟨1, _⟩ => rfl), v27_at]

/-- The row mean, kept as a column. -/
private theorem v31_at (p : Fin 32768) :
    Read.val_main_v31 (F := Ideal) x0 x1 x2 x3 x8 x9 (ix2 p (0 : Fin 1)) = Spec.mean (pre x0 x1 x2 x3 x8 x9 p) := by
  rw [Read.val_main_v31_apply, Read.val_main_v29_apply, Read.val_main_v30_apply,
    show Read.idx_main_v29 (ix2 p (0 : Fin 1)) = ix1 p from
      funext fun a => Fin.ext (by match a with | ⟨0, _⟩ => rfl), v28_at]
  rfl

/-- The mean spread along its row (the copy the variance uses). -/
private theorem v32_at (p : Fin 32768) (q : Fin 512) :
    Read.val_main_v32 (F := Ideal) x0 x1 x2 x3 x8 x9 (ix2 p q) = Spec.mean (pre x0 x1 x2 x3 x8 x9 p) := by
  rw [Read.val_main_v32_apply,
    show Read.idx_main_v32 (ix2 p q) = ix2 p (0 : Fin 1) from
      funext fun a => Fin.ext (by match a with | ⟨0, _⟩ => rfl | ⟨1, _⟩ => rfl), v31_at]

/-- The mean spread along its row (the copy the centred entry uses). -/
private theorem v39_at (p : Fin 32768) (q : Fin 512) :
    Read.val_main_v39 (F := Ideal) x0 x1 x2 x3 x8 x9 (ix2 p q) = Spec.mean (pre x0 x1 x2 x3 x8 x9 p) := by
  rw [Read.val_main_v39_apply,
    show Read.idx_main_v39 (ix2 p q) = ix2 p (0 : Fin 1) from
      funext fun a => Fin.ext (by match a with | ⟨0, _⟩ => rfl | ⟨1, _⟩ => rfl), v31_at]

/-- The squared deviation of an entry from its row's mean. -/
private theorem v34_at (p : Fin 32768) (q : Fin 512) :
    Read.val_main_v34 (F := Ideal) x0 x1 x2 x3 x8 x9 (ix2 p q)
      = (pre x0 x1 x2 x3 x8 x9 p q - Spec.mean (pre x0 x1 x2 x3 x8 x9 p))
          * (pre x0 x1 x2 x3 x8 x9 p q - Spec.mean (pre x0 x1 x2 x3 x8 x9 p)) := by
  rw [Read.val_main_v34_apply, Read.val_main_v33_apply, v32_at, v27_at]
  rfl

/-- The row sum of the squared deviations. -/
private theorem v35_at (p : Fin 32768) :
    Read.val_main_v35 (F := Ideal) x0 x1 x2 x3 x8 x9 (ix1 p)
      = ∑ k : Fin 512, (pre x0 x1 x2 x3 x8 x9 p k - Spec.mean (pre x0 x1 x2 x3 x8 x9 p))
          * (pre x0 x1 x2 x3 x8 x9 p k - Spec.mean (pre x0 x1 x2 x3 x8 x9 p)) := by
  rw [Read.val_main_v35_apply]
  show Ideal.ofBits .f32 0x00000000#32 + _ = _
  rw [Ideal.ofBits_zero_f32, zero_add]
  refine Finset.sum_congr rfl fun k _ => ?_
  rw [show Read.idx_main_v35 (ix1 p) k = ix2 p k from
        funext fun a => Fin.ext (by match a with | ⟨0, _⟩ => rfl | ⟨1, _⟩ => rfl), v34_at]

/-- The inverse root of the row's variance plus the constant, kept as a column. -/
private theorem v43_at (p : Fin 32768) :
    Read.val_main_v43 (F := Ideal) x0 x1 x2 x3 x8 x9 (ix2 p (0 : Fin 1))
      = Ideal.rsqrt (Spec.var (pre x0 x1 x2 x3 x8 x9 p) + Spec.wEpsLN) := by
  rw [Read.val_main_v43_apply, Read.val_main_v42_apply, Read.val_main_v38_apply, Read.val_main_v36_apply,
    Read.val_main_v37_apply, Read.val_main_v41_apply,
    show Read.idx_main_v36 (ix2 p (0 : Fin 1)) = ix1 p from
      funext fun a => Fin.ext (by match a with | ⟨0, _⟩ => rfl), v35_at]
  rfl

/-- The normalised entry, before the scale and the shift. -/
private theorem v45_at (p : Fin 32768) (q : Fin 512) :
    Read.val_main_v45 (F := Ideal) x0 x1 x2 x3 x8 x9 (ix2 p q)
      = (pre x0 x1 x2 x3 x8 x9 p q - Spec.mean (pre x0 x1 x2 x3 x8 x9 p))
          * Ideal.rsqrt (Spec.var (pre x0 x1 x2 x3 x8 x9 p) + Spec.wEpsLN) := by
  rw [Read.val_main_v45_apply, Read.val_main_v40_apply, Read.val_main_v44_apply, v39_at, v27_at,
    show Read.idx_main_v44 (ix2 p q) = ix2 p (0 : Fin 1) from
      funext fun a => Fin.ext (by match a with | ⟨0, _⟩ => rfl | ⟨1, _⟩ => rfl), v43_at]
  rfl

end Activation

/-- The activation's scale vector spread down the rows: at (p, q), its entry q. -/
private theorem v47_at (x6 : (⟨S512, .f32⟩ : BufTy).Contents (Elt Ideal)) (p : Fin 32768) (q : Fin 512) :
    Read.val_main_v47 (F := Ideal) x6 (ix2 p q) = x6 (ix1 q) := by
  rw [Read.val_main_v47_apply, Read.val_main_v46_apply]
  exact congrArg x6 (funext fun a => Fin.ext (by match a with | ⟨0, _⟩ => rfl))

/-- The activation's shift vector spread down the rows: at (p, q), its entry q. -/
private theorem v50_at (x7 : (⟨S512, .f32⟩ : BufTy).Contents (Elt Ideal)) (p : Fin 32768) (q : Fin 512) :
    Read.val_main_v50 (F := Ideal) x7 (ix2 p q) = x7 (ix1 q) := by
  rw [Read.val_main_v50_apply, Read.val_main_v49_apply]
  exact congrArg x7 (funext fun a => Fin.ext (by match a with | ⟨0, _⟩ => rfl))

/-- The reference's activation is the layer's. -/
theorem final_eq (x0 x1 : (⟨S32768x512, .f32⟩ : BufTy).Contents (Elt Ideal)) (x2 x3 : (⟨S512x512, .f32⟩ : BufTy).Contents (Elt Ideal))
    (x6 x7 x8 x9 : (⟨S512, .f32⟩ : BufTy).Contents (Elt Ideal)) :
    Read.val_main_v51 (F := Ideal) x0 x1 x2 x3 x6 x7 x8 x9 = Spec.final x0 x1 x2 x3 x6 x7 x8 x9 := by
  funext i
  obtain ⟨p, q, rfl⟩ : ∃ (p : Fin 32768) (q : Fin 512), i = ix2 p q := ⟨i 0, i 1, eq_ix2 i⟩
  rw [Read.val_main_v51_apply, Read.val_main_v48_apply, v45_at, v47_at, v50_at]
  rfl

/-! ## The two weight updates (operations 52 to 72, and 56 to 85) -/

/-- The weight after the Hebbian step and the decay, before its rows are normalised, of the reference's arguments. -/
private abbrev rawOf (X : (⟨S32768x512, .f32⟩ : BufTy).Contents (Elt Ideal)) (W : (⟨S512x512, .f32⟩ : BufTy).Contents (Elt Ideal))
    (al de : (⟨S512, .f32⟩ : BufTy).Contents (Elt Ideal)) : Fin 512 → Fin 512 → EReal :=
  Spec.raw (Spec.heb X W) W (fun q => al (ix1 q)) (fun q => de (ix1 q))

section Stimulus

variable (x0 : (⟨S32768x512, .f32⟩ : BufTy).Contents (Elt Ideal)) (x2 : (⟨S512x512, .f32⟩ : BufTy).Contents (Elt Ideal))
  (x4 x5 : (⟨S512, .f32⟩ : BufTy).Contents (Elt Ideal))

/-- Entry (i, j) of Xᵀ·(X·W): the sum over the batch. -/
private theorem v52_at (i j : Fin 512) :
    Read.val_main_v52 (F := Ideal) x0 x2 (ix2 i j) = Spec.heb x0 x2 i j := by
  rw [Read.val_main_v52_apply]
  refine Finset.sum_congr rfl fun k _ => ?_
  rw [show Read.lidx_main_v52 (ix2 i j) k = ix2 k i from
        funext fun a => Fin.ext (by match a with | ⟨0, _⟩ => rfl | ⟨1, _⟩ => rfl),
      show Read.ridx_main_v52 (ix2 i j) k = ix2 k j from
        funext fun a => Fin.ext (by match a with | ⟨0, _⟩ => rfl | ⟨1, _⟩ => rfl), v25_at]

/-- The step-size vector spread down the rows: at (i, j), its entry j. -/
private theorem v54_at (i j : Fin 512) : Read.val_main_v54 (F := Ideal) x4 (ix2 i j) = x4 (ix1 j) := by
  rw [Read.val_main_v54_apply, Read.val_main_v53_apply]
  exact congrArg x4 (funext fun a => Fin.ext (by match a with | ⟨0, _⟩ => rfl))

/-- The decay vector spread along the columns: at (i, j), its entry i. -/
private theorem v62_at (i j : Fin 512) : Read.val_main_v62 (F := Ideal) x5 (ix2 i j) = x5 (ix1 i) := by
  rw [Read.val_main_v62_apply, Read.val_main_v61_apply]
  exact congrArg x5 (funext fun a => Fin.ext (by match a with | ⟨0, _⟩ => rfl))

/-- The stepped and decayed weight at (i, j). -/
private theorem v64_at (i j : Fin 512) :
    Read.val_main_v64 (F := Ideal) x0 x2 x4 x5 (ix2 i j) = rawOf x0 x2 x4 x5 i j := by
  rw [Read.val_main_v64_apply, Read.val_main_v60_apply, Read.val_main_v55_apply, Read.val_main_v63_apply,
    v52_at, v54_at, v62_at]
  rfl

/-- The sum of its squares along a row: the zero it starts from adds nothing. -/
private theorem v66_at (i : Fin 512) :
    Read.val_main_v66 (F := Ideal) x0 x2 x4 x5 (ix1 i)
      = ∑ k : Fin 512, rawOf x0 x2 x4 x5 i k * rawOf x0 x2 x4 x5 i k := by
  rw [Read.val_main_v66_apply]
  show Ideal.ofBits .f32 0x00000000#32 + _ = _
  rw [Ideal.ofBits_zero_f32, zero_add]
  refine Finset.sum_congr rfl fun k _ => ?_
  rw [show Read.idx_main_v66 (ix1 i) k = ix2 i k from
        funext fun a => Fin.ext (by match a with | ⟨0, _⟩ => rfl | ⟨1, _⟩ => rfl),
    Read.val_main_v65_apply, v64_at]
  rfl

/-- The floored Euclidean norm of a row, kept as a column. -/
private theorem v70_at (i : Fin 512) :
    Read.val_main_v70 (F := Ideal) x0 x2 x4 x5 (ix2 i (0 : Fin 1))
      = max (Ideal.sqrt (∑ k : Fin 512, rawOf x0 x2 x4 x5 i k * rawOf x0 x2 x4 x5 i k)) Spec.wEpsN := by
  rw [Read.val_main_v70_apply, Read.val_main_v68_apply, Read.val_main_v67_apply, Read.val_main_v69_apply,
    show Read.idx_main_v67 (ix2 i (0 : Fin 1)) = ix1 i from
      funext fun a => Fin.ext (by match a with | ⟨0, _⟩ => rfl), v66_at]
  rfl

end Stimulus

/-- The reference's new stimulus weights are the layer's. -/
theorem newW_eq (x0 : (⟨S32768x512, .f32⟩ : BufTy).Contents (Elt Ideal)) (x2 : (⟨S512x512, .f32⟩ : BufTy).Contents (Elt Ideal))
    (x4 x5 : (⟨S512, .f32⟩ : BufTy).Contents (Elt Ideal)) :
    Read.val_main_v72 (F := Ideal) x0 x2 x4 x5 = Spec.newW x0 x2 x4 x5 := by
  funext i
  obtain ⟨p, q, rfl⟩ : ∃ (p q : Fin 512), i = ix2 p q := ⟨i 0, i 1, eq_ix2 i⟩
  rw [Read.val_main_v72_apply, v64_at, Read.val_main_v71_apply,
    show Read.idx_main_v71 (ix2 p q) = ix2 p (0 : Fin 1) from
      funext fun a => Fin.ext (by match a with | ⟨0, _⟩ => rfl | ⟨1, _⟩ => rfl), v70_at]
  rfl

section RecurrentWeights

variable (x1 : (⟨S32768x512, .f32⟩ : BufTy).Contents (Elt Ideal)) (x3 : (⟨S512x512, .f32⟩ : BufTy).Contents (Elt Ideal))
  (x4 x5 : (⟨S512, .f32⟩ : BufTy).Contents (Elt Ideal))

/-- Entry (i, j) of Pᵀ·(P·Wr): the sum over the batch. -/
private theorem v56_at (i j : Fin 512) :
    Read.val_main_v56 (F := Ideal) x1 x3 (ix2 i j) = Spec.heb x1 x3 i j := by
  rw [Read.val_main_v56_apply]
  refine Finset.sum_congr rfl fun k _ => ?_
  rw [show Read.lidx_main_v56 (ix2 i j) k = ix2 k i from
        funext fun a => Fin.ext (by match a with | ⟨0, _⟩ => rfl | ⟨1, _⟩ => rfl),
      show Read.ridx_main_v56 (ix2 i j) k = ix2 k j from
        funext fun a => Fin.ext (by match a with | ⟨0, _⟩ => rfl | ⟨1, _⟩ => rfl), v0_at]

/-- The step-size vector spread down the rows: at (i, j), its entry j. -/
private theorem v58_at (i j : Fin 512) : Read.val_main_v58 (F := Ideal) x4 (ix2 i j) = x4 (ix1 j) := by
  rw [Read.val_main_v58_apply, Read.val_main_v57_apply]
  exact congrArg x4 (funext fun a => Fin.ext (by match a with | ⟨0, _⟩ => rfl))

/-- The decay vector spread along the columns: at (i, j), its entry i. -/
private theorem v75_at (i j : Fin 512) : Read.val_main_v75 (F := Ideal) x5 (ix2 i j) = x5 (ix1 i) := by
  rw [Read.val_main_v75_apply, Read.val_main_v74_apply]
  exact congrArg x5 (funext fun a => Fin.ext (by match a with | ⟨0, _⟩ => rfl))

/-- The stepped and decayed weight at (i, j). -/
private theorem v77_at (i j : Fin 512) :
    Read.val_main_v77 (F := Ideal) x1 x3 x4 x5 (ix2 i j) = rawOf x1 x3 x4 x5 i j := by
  rw [Read.val_main_v77_apply, Read.val_main_v73_apply, Read.val_main_v59_apply, Read.val_main_v76_apply,
    v56_at, v58_at, v75_at]
  rfl

/-- The sum of its squares along a row: the zero it starts from adds nothing. -/
private theorem v79_at (i : Fin 512) :
    Read.val_main_v79 (F := Ideal) x1 x3 x4 x5 (ix1 i)
      = ∑ k : Fin 512, rawOf x1 x3 x4 x5 i k * rawOf x1 x3 x4 x5 i k := by
  rw [Read.val_main_v79_apply]
  show Ideal.ofBits .f32 0x00000000#32 + _ = _
  rw [Ideal.ofBits_zero_f32, zero_add]
  refine Finset.sum_congr rfl fun k _ => ?_
  rw [show Read.idx_main_v79 (ix1 i) k = ix2 i k from
        funext fun a => Fin.ext (by match a with | ⟨0, _⟩ => rfl | ⟨1, _⟩ => rfl),
    Read.val_main_v78_apply, v77_at]
  rfl

/-- The floored Euclidean norm of a row, kept as a column. -/
private theorem v83_at (i : Fin 512) :
    Read.val_main_v83 (F := Ideal) x1 x3 x4 x5 (ix2 i (0 : Fin 1))
      = max (Ideal.sqrt (∑ k : Fin 512, rawOf x1 x3 x4 x5 i k * rawOf x1 x3 x4 x5 i k)) Spec.wEpsN := by
  rw [Read.val_main_v83_apply, Read.val_main_v81_apply, Read.val_main_v80_apply, Read.val_main_v82_apply,
    show Read.idx_main_v80 (ix2 i (0 : Fin 1)) = ix1 i from
      funext fun a => Fin.ext (by match a with | ⟨0, _⟩ => rfl), v79_at]
  rfl

end RecurrentWeights

/-- The reference's new recurrent weights are the layer's, of the previous activation and the recurrent weights. -/
theorem newWr_eq (x1 : (⟨S32768x512, .f32⟩ : BufTy).Contents (Elt Ideal)) (x3 : (⟨S512x512, .f32⟩ : BufTy).Contents (Elt Ideal))
    (x4 x5 : (⟨S512, .f32⟩ : BufTy).Contents (Elt Ideal)) :
    Read.val_main_v85 (F := Ideal) x1 x3 x4 x5 = Spec.newW x1 x3 x4 x5 := by
  funext i
  obtain ⟨p, q, rfl⟩ : ∃ (p q : Fin 512), i = ix2 p q := ⟨i 0, i 1, eq_ix2 i⟩
  rw [Read.val_main_v85_apply, v77_at, Read.val_main_v84_apply,
    show Read.idx_main_v84 (ix2 p q) = ix2 p (0 : Fin 1) from
      funext fun a => Fin.ext (by match a with | ⟨0, _⟩ => rfl | ⟨1, _⟩ => rfl), v83_at]
  rfl

end Cert.ReferenceIdeal.RefValue

end
-- ==== Proof.lean ====
/-
  A Hebbian layer: the fused kernel against its reference, over the extended reals.

  The layer takes a batch X of 32768 stimulus rows and a batch P of previous activations, both of width 512, two
  512 × 512 weight matrices W and Wr, and six parameter vectors. With S = X·W and R = P·Wr it returns

      final b = LN (max (S b + LN (R b; γr, βr)) 0; γa, βa)        (row by row),
      newW    = rows of (W + (Xᵀ·S)·diag α − diag δ · W), each divided by its floored Euclidean norm,
      newWr   = the same of (P, Wr, R).

  The reference computes exactly this, one host operation at a time (RefValue.lean). The kernel walks the batch in 64
  blocks of 512 rows: each point computes its rows of `final` (KernelFinal.lean) and adds its block's Xₛᵀ·(Xₛ·W) and
  Pₛᵀ·(Pₛ·Wr) into two accumulators that the first point resets; the last point forms the two new weight matrices
  from the accumulators (KernelAcc.lean). The only difference between the two programs at the ideal values is that
  the batch sum is taken 512 rows at a time, and addition of extended reals is commutative and associative
  (BlockSum.lean); every float word the two share (512, the two small constants, zero) is the same pattern on both
  sides and is never evaluated, so the finiteness of the inputs is not used. The three frames are the generated
  ones (the reference's is its generated run with the results dropped), and the idealization rewrote nothing.
-/
import proofs.«137702_j20761871909484_1_alg».proof.Defs
import proofs.«137702_j20761871909484_1_alg».proof.Proof.Gen.Kernel
import proofs.«137702_j20761871909484_1_alg».proof.Proof.Gen.Kernel.Skeleton
import proofs.«137702_j20761871909484_1_alg».proof.Proof.Gen.Kernel.Launch
import proofs.«137702_j20761871909484_1_alg».proof.Proof.Gen.Kernel.Points
import proofs.«137702_j20761871909484_1_alg».proof.Proof.Gen.Kernel.Frame
import proofs.«137702_j20761871909484_1_alg».proof.Proof.Gen.KernelIdeal
import proofs.«137702_j20761871909484_1_alg».proof.Proof.Gen.KernelIdeal.Skeleton
import proofs.«137702_j20761871909484_1_alg».proof.Proof.Gen.KernelIdeal.Launch
import proofs.«137702_j20761871909484_1_alg».proof.Proof.Gen.KernelIdeal.Points
import proofs.«137702_j20761871909484_1_alg».proof.Proof.Gen.KernelIdeal.Frame
import proofs.«137702_j20761871909484_1_alg».proof.Proof.Gen.ReferenceIdeal
import proofs.«137702_j20761871909484_1_alg».proof.Proof.Gen.Pre_finite_inputs
import proofs.«137702_j20761871909484_1_alg».proof.Proof.Gen.KernelIdeal.Value
import proofs.«137702_j20761871909484_1_alg».proof.Proof.Gen.ReferenceIdeal.Run
import proofs.«137702_j20761871909484_1_alg».proof.Proof.Gen.ReferenceIdeal.Read
import proofs.«137702_j20761871909484_1_alg».proof.Proof.KernelRun
import proofs.«137702_j20761871909484_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both programs end at the layer's three results of arguments that agree. -/
theorem algebraic : Cert.algebraic_KernelIdeal_ReferenceIdeal := by
  intro m ρ m' ρ' _ hagree
  refine ⟨fun c => Cert.KernelIdeal.KValue.finalG m c, fun c => Cert.KernelIdeal.KValue.newWG m c,
    fun c => Cert.KernelIdeal.KValue.newWrG m c, Cert.KernelIdeal.KValue.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9⟩ := hagree c
  refine ⟨(h c).1.trans ?_, (h c).2.1.trans ?_, (h c).2.2.1.trans ?_, (h c).2.2.2⟩
  · rw [Cert.ReferenceIdeal.Read.val_main_v51_eq, Cert.ReferenceIdeal.RefValue.final_eq, e0, e1, e2, e3, e6, e7, e8, e9]
  · refine (Cert.ReferenceIdeal.Read.val_main_v72_eq _ _ _ _).trans ?_
    rw [Cert.ReferenceIdeal.RefValue.newW_eq, e0, e2, e4, e5]
  · refine (Cert.ReferenceIdeal.Read.val_main_v85_eq _ _ _ _).trans ?_
    rw [Cert.ReferenceIdeal.RefValue.newWr_eq, e1, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
